-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x250 : Shape := ⟨2, ![262144, 250]⟩
abbrev S262144x100 : Shape := ⟨2, ![262144, 100]⟩
abbrev S300x250 : Shape := ⟨2, ![300, 250]⟩
abbrev S300x100 : Shape := ⟨2, ![300, 100]⟩
abbrev S300 : Shape := ⟨1, ![300]⟩
abbrev S100x250 : Shape := ⟨2, ![100, 250]⟩
abbrev S100x100 : Shape := ⟨2, ![100, 100]⟩
abbrev S_ : Shape := ⟨0, ![]⟩

class Facts : Prop where
  bcast_S_S262144x250 : S_.BroadcastsInDim S262144x250 (![] : Fin 0 → Fin S262144x250.rank)
  reducesTo_S262144x250_S_d0_1 : S262144x250.ReducesTo [0, 1] S_
  h_S_ : 0 < S_.numel
  bcast_S_S262144x100 : S_.BroadcastsInDim S262144x100 (![] : Fin 0 → Fin S262144x100.rank)
  reducesTo_S262144x100_S_d0_1 : S262144x100.ReducesTo [0, 1] S_
  bcast_S_S300x250 : S_.BroadcastsInDim S300x250 (![] : Fin 0 → Fin S300x250.rank)
  reducesTo_S300x250_S_d0_1 : S300x250.ReducesTo [0, 1] S_
  bcast_S_S300x100 : S_.BroadcastsInDim S300x100 (![] : Fin 0 → Fin S300x100.rank)
  reducesTo_S300x100_S_d0_1 : S300x100.ReducesTo [0, 1] S_
  bcast_S_S300 : S_.BroadcastsInDim S300 (![] : Fin 0 → Fin S300.rank)
  reducesTo_S300_S_d0 : S300.ReducesTo [0] S_
  bcast_S_S100x250 : S_.BroadcastsInDim S100x250 (![] : Fin 0 → Fin S100x250.rank)
  reducesTo_S100x250_S_d0_1 : S100x250.ReducesTo [0, 1] S_
  bcast_S_S100x100 : S_.BroadcastsInDim S100x100 (![] : Fin 0 → Fin S100x100.rank)
  reducesTo_S100x100_S_d0_1 : S100x100.ReducesTo [0, 1] S_

variable [Facts]

def fn_part4 {F : FTy → Type} [FloatOps F] (main_arg14 : FVec F S100x100 .f32) (main_arg15 : FVec F S100x100 .f32) (main_v63 : IVec S_ 1) (main_v67 : IVec S_ 1) : IVec S_ 1 :=
  let main_v68 : IVec S_ 1 := andi main_v63 main_v67
  let main_v69 : FVec F S100x100 .f32 := Host.absf main_arg14
  let main_cst_26 : FVec F S_ .f32 := constant S_ .f32 0x7F800000#32
  let main_v70 : FVec F S100x100 .f32 := broadcastInDim S100x100 ![] bcast_S_S100x100 main_cst_26
  let main_v71 : IVec S100x100 1 := cmpf .olt main_v69 main_v70
  let main_c_27 : IVec S_ 1 := constantI S_ 1 1#1
  let main_v72 : IVec S_ 1 := (fun x v => Host.reduce IntOp.andi x v reducesTo_S100x100_S_d0_1 h_S_) main_v71 main_c_27
  let main_v73 : IVec S_ 1 := andi main_v68 main_v72
  let main_v74 : FVec F S100x100 .f32 := Host.absf main_arg15
  let main_cst_28 : FVec F S_ .f32 := constant S_ .f32 0x7F800000#32
  let main_v75 : FVec F S100x100 .f32 := broadcastInDim S100x100 ![] bcast_S_S100x100 main_cst_28
  let main_v76 : IVec S100x100 1 := cmpf .olt main_v74 main_v75
  let main_c_29 : IVec S_ 1 := constantI S_ 1 1#1
  let main_v77 : IVec S_ 1 := (fun x v => Host.reduce IntOp.andi x v reducesTo_S100x100_S_d0_1 h_S_) main_v76 main_c_29
  let main_v78 : IVec S_ 1 := andi main_v73 main_v77
  main_v78

def fn_part3 {F : FTy → Type} [FloatOps F] (main_arg11 : FVec F S100x100 .f32) (main_arg12 : FVec F S100x100 .f32) (main_arg13 : FVec F S100x250 .f32) (main_arg14 : FVec F S100x100 .f32) (main_arg15 : FVec F S100x100 .f32) (main_v48 : IVec S_ 1) (main_v49 : FVec F S100x250 .f32) (main_v50 : FVec F S100x250 .f32) : IVec S_ 1 :=
  let main_v51 : IVec S100x250 1 := cmpf .olt main_v49 main_v50
  let main_c_19 : IVec S_ 1 := constantI S_ 1 1#1
  let main_v52 : IVec S_ 1 := (fun x v => Host.reduce IntOp.andi x v reducesTo_S100x250_S_d0_1 h_S_) main_v51 main_c_19
  let main_v53 : IVec S_ 1 := andi main_v48 main_v52
  let main_v54 : FVec F S100x100 .f32 := Host.absf main_arg11
  let main_cst_20 : FVec F S_ .f32 := constant S_ .f32 0x7F800000#32
  let main_v55 : FVec F S100x100 .f32 := broadcastInDim S100x100 ![] bcast_S_S100x100 main_cst_20
  let main_v56 : IVec S100x100 1 := cmpf .olt main_v54 main_v55
  let main_c_21 : IVec S_ 1 := constantI S_ 1 1#1
  let main_v57 : IVec S_ 1 := (fun x v => Host.reduce IntOp.andi x v reducesTo_S100x100_S_d0_1 h_S_) main_v56 main_c_21
  let main_v58 : IVec S_ 1 := andi main_v53 main_v57
  let main_v59 : FVec F S100x100 .f32 := Host.absf main_arg12
  let main_cst_22 : FVec F S_ .f32 := constant S_ .f32 0x7F800000#32
  let main_v60 : FVec F S100x100 .f32 := broadcastInDim S100x100 ![] bcast_S_S100x100 main_cst_22
  let main_v61 : IVec S100x100 1 := cmpf .olt main_v59 main_v60
  let main_c_23 : IVec S_ 1 := constantI S_ 1 1#1
  let main_v62 : IVec S_ 1 := (fun x v => Host.reduce IntOp.andi x v reducesTo_S100x100_S_d0_1 h_S_) main_v61 main_c_23
  let main_v63 : IVec S_ 1 := andi main_v58 main_v62
  let main_v64 : FVec F S100x250 .f32 := Host.absf main_arg13
  let main_cst_24 : FVec F S_ .f32 := constant S_ .f32 0x7F800000#32
  let main_v65 : FVec F S100x250 .f32 := broadcastInDim S100x250 ![] bcast_S_S100x250 main_cst_24
  let main_v66 : IVec S100x250 1 := cmpf .olt main_v64 main_v65
  let main_c_25 : IVec S_ 1 := constantI S_ 1 1#1
  let main_v67 : IVec S_ 1 := (fun x v => Host.reduce IntOp.andi x v reducesTo_S100x250_S_d0_1 h_S_) main_v66 main_c_25
  fn_part4 (F := F) main_arg14 main_arg15 main_v63 main_v67

def fn_part2 {F : FTy → Type} [FloatOps F] (main_arg7 : FVec F S100x250 .f32) (main_arg8 : FVec F S100x100 .f32) (main_arg9 : FVec F S100x100 .f32) (main_arg10 : FVec F S100x250 .f32) (main_arg11 : FVec F S100x100 .f32) (main_arg12 : FVec F S100x100 .f32) (main_arg13 : FVec F S100x250 .f32) (main_arg14 : FVec F S100x100 .f32) (main_arg15 : FVec F S100x100 .f32) (main_v33 : IVec S_ 1) : IVec S_ 1 :=
  let main_v34 : FVec F S100x250 .f32 := Host.absf main_arg7
  let main_cst_12 : FVec F S_ .f32 := constant S_ .f32 0x7F800000#32
  let main_v35 : FVec F S100x250 .f32 := broadcastInDim S100x250 ![] bcast_S_S100x250 main_cst_12
  let main_v36 : IVec S100x250 1 := cmpf .olt main_v34 main_v35
  let main_c_13 : IVec S_ 1 := constantI S_ 1 1#1
  let main_v37 : IVec S_ 1 := (fun x v => Host.reduce IntOp.andi x v reducesTo_S100x250_S_d0_1 h_S_) main_v36 main_c_13
  let main_v38 : IVec S_ 1 := andi main_v33 main_v37
  let main_v39 : FVec F S100x100 .f32 := Host.absf main_arg8
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100x100 .f32 := Host.absf main_arg9
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100x250 .f32 := Host.absf main_arg10
  let main_cst_18 : FVec F S_ .f32 := constant S_ .f32 0x7F800000#32
  let main_v50 : FVec F S100x250 .f32 := broadcastInDim S100x250 ![] bcast_S_S100x250 main_cst_18
  fn_part3 (F := F) main_arg11 main_arg12 main_arg13 main_arg14 main_arg15 main_v48 main_v49 main_v50

def fn_part1 {F : FTy → Type} [FloatOps F] (main_arg4 : FVec F S300x100 .f32) (main_arg5 : FVec F S300 .f32) (main_arg6 : FVec F S300 .f32) (main_arg7 : FVec F S100x250 .f32) (main_arg8 : FVec F S100x100 .f32) (main_arg9 : FVec F S100x100 .f32) (main_arg10 : FVec F S100x250 .f32) (main_arg11 : FVec F S100x100 .f32) (main_arg12 : FVec F S100x100 .f32) (main_arg13 : FVec F S100x250 .f32) (main_arg14 : FVec F S100x100 .f32) (main_arg15 : FVec F S100x100 .f32) (main_v13 : IVec S_ 1) (main_v16 : IVec S300x250 1) : IVec S_ 1 :=
  let main_c_5 : IVec S_ 1 := constantI S_ 1 1#1
  let main_v17 : IVec S_ 1 := (fun x v => Host.reduce IntOp.andi x v reducesTo_S300x250_S_d0_1 h_S_) main_v16 main_c_5
  let main_v18 : IVec S_ 1 := andi main_v13 main_v17
  let main_v19 : FVec F S300x100 .f32 := Host.absf main_arg4
  let main_cst_6 : FVec F S_ .f32 := constant S_ .f32 0x7F800000#32
  let main_v20 : FVec F S300x100 .f32 := broadcastInDim S300x100 ![] bcast_S_S300x100 main_cst_6
  let main_v21 : IVec S300x100 1 := cmpf .olt main_v19 main_v20
  let main_c_7 : IVec S_ 1 := constantI S_ 1 1#1
  let main_v22 : IVec S_ 1 := (fun x v => Host.reduce IntOp.andi x v reducesTo_S300x100_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300 .f32 := Host.absf main_arg6
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S262144x250 .f32) (main_arg1 : FVec F S262144x100 .f32) (main_arg2 : FVec F S262144x100 .f32) (main_arg3 : FVec F S300x250 .f32) (main_arg4 : FVec F S300x100 .f32) (main_arg5 : FVec F S300 .f32) (main_arg6 : FVec F S300 .f32) (main_arg7 : FVec F S100x250 .f32) (main_arg8 : FVec F S100x100 .f32) (main_arg9 : FVec F S100x100 .f32) (main_arg10 : FVec F S100x250 .f32) (main_arg11 : FVec F S100x100 .f32) (main_arg12 : FVec F S100x100 .f32) (main_arg13 : FVec F S100x250 .f32) (main_arg14 : FVec F S100x100 .f32) (main_arg15 : FVec F S100x100 .f32) : IVec S_ 1 :=
  let main_v0 : FVec F S262144x250 .f32 := Host.absf main_arg0
  let main_cst : FVec F S_ .f32 := constant S_ .f32 0x7F800000#32
  let main_v1 : FVec F S262144x250 .f32 := broadcastInDim S262144x250 ![] bcast_S_S262144x250 main_cst
  let main_v2 : IVec S262144x250 1 := cmpf .olt main_v0 main_v1
  let main_c : IVec S_ 1 := constantI S_ 1 1#1
  let main_v3 : IVec S_ 1 := (fun x v => Host.reduce IntOp.andi x v reducesTo_S262144x250_S_d0_1 h_S_) main_v2 main_c
  let main_v4 : FVec F S262144x100 .f32 := Host.absf main_arg1
  let main_cst_0 : FVec F S_ .f32 := constant S_ .f32 0x7F800000#32
  let main_v5 : FVec F S262144x100 .f32 := broadcastInDim S262144x100 ![] bcast_S_S262144x100 main_cst_0
  let main_v6 : IVec S262144x100 1 := cmpf .olt main_v4 main_v5
  let main_c_1 : IVec S_ 1 := constantI S_ 1 1#1
  let main_v7 : IVec S_ 1 := (fun x v => Host.reduce IntOp.andi x v reducesTo_S262144x100_S_d0_1 h_S_) main_v6 main_c_1
  let main_v8 : IVec S_ 1 := andi main_v3 main_v7
  let main_v9 : FVec F S262144x100 .f32 := Host.absf main_arg2
  let main_cst_2 : FVec F S_ .f32 := constant S_ .f32 0x7F800000#32
  let main_v10 : FVec F S262144x100 .f32 := broadcastInDim S262144x100 ![] bcast_S_S262144x100 main_cst_2
  let main_v11 : IVec S262144x100 1 := cmpf .olt main_v9 main_v10
  let main_c_3 : IVec S_ 1 := constantI S_ 1 1#1
  let main_v12 : IVec S_ 1 := (fun x v => Host.reduce IntOp.andi x v reducesTo_S262144x100_S_d0_1 h_S_) main_v11 main_c_3
  let main_v13 : IVec S_ 1 := andi main_v8 main_v12
  let main_v14 : FVec F S300x250 .f32 := Host.absf main_arg3
  let main_cst_4 : FVec F S_ .f32 := constant S_ .f32 0x7F800000#32
  let main_v15 : FVec F S300x250 .f32 := broadcastInDim S300x250 ![] bcast_S_S300x250 main_cst_4
  let main_v16 : IVec S300x250 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S262144x250 : Shape := ⟨2, ![262144, 250]⟩
abbrev S262144x100 : Shape := ⟨2, ![262144, 100]⟩
abbrev S300x250 : Shape := ⟨2, ![300, 250]⟩
abbrev S300x100 : Shape := ⟨2, ![300, 100]⟩
abbrev S300 : Shape := ⟨1, ![300]⟩
abbrev S100x250 : Shape := ⟨2, ![100, 250]⟩
abbrev S100x100 : Shape := ⟨2, ![100, 100]⟩
abbrev S600x250 : Shape := ⟨2, ![600, 250]⟩
abbrev S250x600 : Shape := ⟨2, ![250, 600]⟩
abbrev S100x300 : Shape := ⟨2, ![100, 300]⟩
abbrev S1x300 : Shape := ⟨2, ![1, 300]⟩
abbrev S2048x250 : Shape := ⟨2, ![2048, 250]⟩
abbrev S2048x100 : Shape := ⟨2, ![2048, 100]⟩
abbrev S2048x600 : Shape := ⟨2, ![2048, 600]⟩
abbrev S2048x300 : Shape := ⟨2, ![2048, 300]⟩

abbrev nBuf : Space → Nat
  | .hbm => 30
  | .vmem => 14
  | .smem => 0
  | _ => 0

abbrev bufTy : (tb : Table) → Fin (tcTables nBuf tb) → BufTy
  | .hbm, ⟨0, _⟩ => ⟨S262144x250, .f32⟩
  | .hbm, ⟨1, _⟩ => ⟨S262144x100, .f32⟩
  | .hbm, ⟨2, _⟩ => ⟨S262144x100, .f32⟩
  | .hbm, ⟨3, _⟩ => ⟨S300x250, .f32⟩
  | .hbm, ⟨4, _⟩ => ⟨S300x100, .f32⟩
  | .hbm, ⟨5, _⟩ => ⟨S300, .f32⟩
  | .hbm, ⟨6, _⟩ => ⟨S300, .f32⟩
  | .hbm, ⟨7, _⟩ => ⟨S100x250, .f32⟩
  | .hbm, ⟨8, _⟩ => ⟨S100x100, .f32⟩
  | .hbm, ⟨9, _⟩ => ⟨S100x100, .f32⟩
  | .hbm, ⟨10, _⟩ => ⟨S100x250, .f32⟩
  | .hbm, ⟨11, _⟩ => ⟨S100x100, .f32⟩
  | .hbm, ⟨12, _⟩ => ⟨S100x100, .f32⟩
  | .hbm, ⟨13, _⟩ => ⟨S100x250, .f32⟩
  | .hbm, ⟨14, _⟩ => ⟨S100x100, .f32⟩
  | .hbm, ⟨15, _⟩ => ⟨S100x100, .f32⟩
  | .hbm, ⟨16, _⟩ => ⟨S600x250, .f32⟩
  | .hbm, ⟨17, _⟩ => ⟨S250x600, .f32⟩
  | .hbm, ⟨18, _⟩ => ⟨S250x600, .bf16⟩
  | .hbm, ⟨19, _⟩ => ⟨S300x100, .f32⟩
  | .hbm, ⟨20, _⟩ => ⟨S100x300, .f32⟩
  | .hbm, ⟨21, _⟩ => ⟨S100x300, .bf16⟩
  | .hbm, ⟨22, _⟩ => ⟨S100x300, .f32⟩
  | .hbm, ⟨23, _⟩ => ⟨S100x300, .bf16⟩
  | .hbm, ⟨24, _⟩ => ⟨S300x100, .f32⟩
  | .hbm, ⟨25, _⟩ => ⟨S100x300, .f32⟩
  | .hbm, ⟨26, _⟩ => ⟨S100x300, .bf16⟩
  | .hbm, ⟨27, _⟩ => ⟨S1x300, .f32⟩
  | .hbm, ⟨28, _⟩ => ⟨S1x300, .f32⟩
  | .hbm, ⟨29, _⟩ => ⟨S262144x100, .f32⟩
  | .local _ .vmem, ⟨0, _⟩ => ⟨S2048x250, .f32⟩
  | .local _ .vmem, ⟨1, _⟩ => ⟨S2048x250, .f32⟩
  | .local _ .vmem, ⟨2, _⟩ => ⟨S2048x100, .f32⟩
  | .local _ .vmem, ⟨3, _⟩ => ⟨S2048x100, .f32⟩
  | .local _ .vmem, ⟨4, _⟩ => ⟨S2048x100, .f32⟩
  | .local _ .vmem, ⟨5, _⟩ => ⟨S2048x100, .f32⟩
  | .local _ .vmem, ⟨6, _⟩ => ⟨S250x600, .bf16⟩
  | .local _ .vmem, ⟨7, _⟩ => ⟨S100x300, .bf16⟩
  | .local _ .vmem, ⟨8, _⟩ => ⟨S100x300, .bf16⟩
  | .local _ .vmem, ⟨9, _⟩ => ⟨S100x300, .bf16⟩
  | .local _ .vmem, ⟨10, _⟩ => ⟨S1x300, .f32⟩
  | .local _ .vmem, ⟨11, _⟩ => ⟨S1x300, .f32⟩
  | .local _ .vmem, ⟨12, _⟩ => ⟨S2048x100, .f32⟩
  | .local _ .vmem, ⟨13, _⟩ => ⟨S2048x100, .f32⟩
  | _, _ => ⟨S262144x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S250x600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x300 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x300 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x300 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x300 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x100 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S300x250_S100x250_S100x250_S100x250_S600x250_d0 : Shape.Concatenates [S300x250, S100x250, S100x250, S100x250] S600x250 0
  transposes_S600x250_S250x600_1_0 : S600x250.Transposes [1, 0] S250x600
  bitsLt_bf16_f32 : FTy.bits .bf16 < FTy.bits .f32
  concatenates_S100x100_S100x100_S100x100_S300x100_d0 : Shape.Concatenates [S100x100, S100x100, S100x100] S300x100 0
  transposes_S300x100_S100x300_1_0 : S300x100.Transposes [1, 0] S100x300
  shapeCasts_S300_S1x300 : S300.ShapeCasts S1x300
  inb_S2048x250_S2048x250_0_0 : ∀ a, (![0, 0] : Fin 2 → Nat) a + S2048x250.size a ≤ S2048x250.size a
  h_S2048x250 : 0 < S2048x250.numel
  inb_S2048x100_S2048x100_0_0 : ∀ a, (![0, 0] : Fin 2 → Nat) a + S2048x100.size a ≤ S2048x100.size a
  h_S2048x100 : 0 < S2048x100.numel
  inb_S250x600_S250x600_0_0 : ∀ a, (![0, 0] : Fin 2 → Nat) a + S250x600.size a ≤ S250x600.size a
  h_S250x600 : 0 < S250x600.numel
  shapeCasts_S250x600_S250x600 : S250x600.ShapeCasts S250x600
  inb_S100x300_S100x300_0_0 : ∀ a, (![0, 0] : Fin 2 → Nat) a + S100x300.size a ≤ S100x300.size a
  h_S100x300 : 0 < S100x300.numel
  shapeCasts_S100x300_S100x300 : S100x300.ShapeCasts S100x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  slices_S2048x600_o0_0_S2048x300 : S2048x600.Slices ![0, 0] S2048x300
  slices_S2048x600_o0_300_S2048x100 : S2048x600.Slices ![0, 300] S2048x100
  slices_S2048x600_o0_400_S2048x100 : S2048x600.Slices ![0, 400] S2048x100
  slices_S2048x600_o0_500_S2048x100 : S2048x600.Slices ![0, 500] S2048x100
  slices_S2048x300_o0_0_S2048x100 : S2048x300.Slices ![0, 0] S2048x100
  slices_S2048x300_o0_100_S2048x100 : S2048x300.Slices ![0, 100] S2048x100
  slices_S2048x300_o0_200_S2048x100 : S2048x300.Slices ![0, 200] S2048x100
  dot_S2048x250_S250x600_S2048x600_1_0_0_1_n_n_wf : DotDims.WF S2048x250 S250x600 S2048x600 [1] [0] [0] [1] [] []
  dot_S2048x100_S100x300_S2048x300_1_0_0_1_n_n_wf : DotDims.WF S2048x100 S100x300 S2048x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x250.size a ≤ S262144x250.size a
  hwx0_0 : ∀ i : grid0.Coords, EltTy.bits .f32 = 32 ∨ (Rect.block (s := S262144x250) S2048x250.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x100.size a ≤ S262144x100.size a
  hwx0_1 : ∀ i : grid0.Coords, EltTy.bits .f32 = 32 ∨ (Rect.block (s := S262144x100) S2048x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x100.size a ≤ S262144x100.size a
  hwx0_2 : ∀ i : grid0.Coords, EltTy.bits .f32 = 32 ∨ (Rect.block (s := S262144x100) S2048x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S250x600.size a ≤ S250x600.size a
  hwx0_3 : ∀ i : grid0.Coords, EltTy.bits .bf16 = 32 ∨ (Rect.block (s := S250x600) S250x600.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x300.size a ≤ S100x300.size a
  hwx0_4 : ∀ i : grid0.Coords, EltTy.bits .bf16 = 32 ∨ (Rect.block (s := S100x300) S100x300.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x300.size a ≤ S100x300.size a
  hwx0_5 : ∀ i : grid0.Coords, EltTy.bits .bf16 = 32 ∨ (Rect.block (s := S100x300) S100x300.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x300.size a ≤ S100x300.size a
  hwx0_6 : ∀ i : grid0.Coords, EltTy.bits .bf16 = 32 ∨ (Rect.block (s := S100x300) S100x300.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x300.size a ≤ S1x300.size a
  hwx0_7 : ∀ i : grid0.Coords, EltTy.bits .f32 = 32 ∨ (Rect.block (s := S1x300) S1x300.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x300.size a ≤ S1x300.size a
  hwx0_8 : ∀ i : grid0.Coords, EltTy.bits .f32 = 32 ∨ (Rect.block (s := S1x300) S1x300.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x100.size a ≤ S262144x100.size a
  hwx0_9 : ∀ i : grid0.Coords, EltTy.bits .f32 = 32 ∨ (Rect.block (s := S262144x100) S2048x100.size (cc0_transform_9 i) (hinb0_9 i)).WholeWords (EltTy.packing .f32)

variable [Facts₀]

def dot_S2048x250_S250x600_S2048x600_1_0_0_1_n_n : DotDims S2048x250 S250x600 S2048x600 where
  lhsContracting := [1]
  rhsContracting := [0]
  lhsNonContracting := [0]
  rhsNonContracting := [1]
  lhsBatch := []
  rhsBatch := []
  wf := dot_S2048x250_S250x600_S2048x600_1_0_0_1_n_n_wf
def dot_S2048x100_S100x300_S2048x300_1_0_0_1_n_n : DotDims S2048x100 S100x300 S2048x300 where
  lhsContracting := [1]
  rhsContracting := [0]
  lhsNonContracting := [0]
  rhsNonContracting := [1]
  lhsBatch := []
  rhsBatch := []
  wf := dot_S2048x100_S100x300_S2048x300_1_0_0_1_n_n_wf

abbrev win0_0 : Pipeline.Window sig grid0 :=
  Pipeline.Window.ofSpec (Memref.whole main_arg0) S2048x250.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S250x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S100x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S100x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S100x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x300.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S2048x100.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x250 : Shape := ⟨2, ![262144, 250]⟩
abbrev S262144x100 : Shape := ⟨2, ![262144, 100]⟩
abbrev S300x250 : Shape := ⟨2, ![300, 250]⟩
abbrev S300x100 : Shape := ⟨2, ![300, 100]⟩
abbrev S300 : Shape := ⟨1, ![300]⟩
abbrev S100x250 : Shape := ⟨2, ![100, 250]⟩
abbrev S100x100 : Shape := ⟨2, ![100, 100]⟩
abbrev S250x300 : Shape := ⟨2, ![250, 300]⟩
abbrev S262144x300 : Shape := ⟨2, ![262144, 300]⟩
abbrev S1x300 : Shape := ⟨2, ![1, 300]⟩
abbrev S100x300 : Shape := ⟨2, ![100, 300]⟩
abbrev S_ : Shape := ⟨0, ![]⟩
abbrev S250x100 : Shape := ⟨2, ![250, 100]⟩

abbrev nBuf : Space → Nat
  | .hbm => 107
  | .vmem => 0
  | .smem => 0
  | _ => 0

abbrev bufTy : (tb : Table) → Fin (tcTables nBuf tb) → BufTy
  | .hbm, ⟨0, _⟩ => ⟨S262144x250, .f32⟩
  | .hbm, ⟨1, _⟩ => ⟨S262144x100, .f32⟩
  | .hbm, ⟨2, _⟩ => ⟨S262144x100, .f32⟩
  | .hbm, ⟨3, _⟩ => ⟨S300x250, .f32⟩
  | .hbm, ⟨4, _⟩ => ⟨S300x100, .f32⟩
  | .hbm, ⟨5, _⟩ => ⟨S300, .f32⟩
  | .hbm, ⟨6, _⟩ => ⟨S300, .f32⟩
  | .hbm, ⟨7, _⟩ => ⟨S100x250, .f32⟩
  | .hbm, ⟨8, _⟩ => ⟨S100x100, .f32⟩
  | .hbm, ⟨9, _⟩ => ⟨S100x100, .f32⟩
  | .hbm, ⟨10, _⟩ => ⟨S100x250, .f32⟩
  | .hbm, ⟨11, _⟩ => ⟨S100x100, .f32⟩
  | .hbm, ⟨12, _⟩ => ⟨S100x100, .f32⟩
  | .hbm, ⟨13, _⟩ => ⟨S100x250, .f32⟩
  | .hbm, ⟨14, _⟩ => ⟨S100x100, .f32⟩
  | .hbm, ⟨15, _⟩ => ⟨S100x100, .f32⟩
  | .hbm, ⟨16, _⟩ => ⟨S250x300, .f32⟩
  | .hbm, ⟨17, _⟩ => ⟨S262144x300, .f32⟩
  | .hbm, ⟨18, _⟩ => ⟨S1x300, .f32⟩
  | .hbm, ⟨19, _⟩ => ⟨S262144x300, .f32⟩
  | .hbm, ⟨20, _⟩ => ⟨S262144x300, .f32⟩
  | .hbm, ⟨21, _⟩ => ⟨S100x300, .f32⟩
  | .hbm, ⟨22, _⟩ => ⟨S262144x300, .f32⟩
  | .hbm, ⟨23, _⟩ => ⟨S1x300, .f32⟩
  | .hbm, ⟨24, _⟩ => ⟨S262144x300, .f32⟩
  | .hbm, ⟨25, _⟩ => ⟨S262144x300, .f32⟩
  | .hbm, ⟨26, _⟩ => ⟨S262144x100, .f32⟩
  | .hbm, ⟨27, _⟩ => ⟨S262144x100, .f32⟩
  | .hbm, ⟨28, _⟩ => ⟨S262144x100, .f32⟩
  | .hbm, ⟨29, _⟩ => ⟨S262144x100, .f32⟩
  | .hbm, ⟨30, _⟩ => ⟨S262144x100, .f32⟩
  | .hbm, ⟨31, _⟩ => ⟨S262144x100, .f32⟩
  | .hbm, ⟨32, _⟩ => ⟨S262144x100, .f32⟩
  | .hbm, ⟨33, _⟩ => ⟨S262144x100, .f32⟩
  | .hbm, ⟨34, _⟩ => ⟨S262144x100, .f32⟩
  | .hbm, ⟨35, _⟩ => ⟨S_, .f32⟩
  | .hbm, ⟨36, _⟩ => ⟨S262144x100, .f32⟩
  | .hbm, ⟨37, _⟩ => ⟨S262144x100, .f32⟩
  | .hbm, ⟨38, _⟩ => ⟨S_, .f32⟩
  | .hbm, ⟨39, _⟩ => ⟨S262144x100, .f32⟩
  | .hbm, ⟨40, _⟩ => ⟨S262144x100, .f32⟩
  | .hbm, ⟨41, _⟩ => ⟨S262144x100, .f32⟩
  | .hbm, ⟨42, _⟩ => ⟨S262144x100, .f32⟩
  | .hbm, ⟨43, _⟩ => ⟨S262144x100, .f32⟩
  | .hbm, ⟨44, _⟩ => ⟨S_, .f32⟩
  | .hbm, ⟨45, _⟩ => ⟨S262144x100, .f32⟩
  | .hbm, ⟨46, _⟩ => ⟨S262144x100, .f32⟩
  | .hbm, ⟨47, _⟩ => ⟨S_, .f32⟩
  | .hbm, ⟨48, _⟩ => ⟨S262144x100, .f32⟩
  | .hbm, ⟨49, _⟩ => ⟨S262144x100, .f32⟩
  | .hbm, ⟨50, _⟩ => ⟨S262144x100, .f32⟩
  | .hbm, ⟨51, _⟩ => ⟨S262144x100, .f32⟩
  | .hbm, ⟨52, _⟩ => ⟨S262144x100, .f32⟩
  | .hbm, ⟨53, _⟩ => ⟨S_, .f32⟩
  | .hbm, ⟨54, _⟩ => ⟨S262144x100, .f32⟩
  | .hbm, ⟨55, _⟩ => ⟨S262144x100, .f32⟩
  | .hbm, ⟨56, _⟩ => ⟨S262144x100, .f32⟩
  | .hbm, ⟨57, _⟩ => ⟨S262144x100, .f32⟩
  | .hbm, ⟨58, _⟩ => ⟨S262144x100, .f32⟩
  | .hbm, ⟨59, _⟩ => ⟨S250x100, .f32⟩
  | .hbm, ⟨60, _⟩ => ⟨S262144x100, .f32⟩
  | .hbm, ⟨61, _⟩ => ⟨S100x100, .f32⟩
  | .hbm, ⟨62, _⟩ => ⟨S262144x100, .f32⟩
  | .hbm, ⟨63, _⟩ => ⟨S262144x100, .f32⟩
  | .hbm, ⟨64, _⟩ => ⟨S100x100, .f32⟩
  | .hbm, ⟨65, _⟩ => ⟨S262144x100, .f32⟩
  | .hbm, ⟨66, _⟩ => ⟨S262144x100, .f32⟩
  | .hbm, ⟨67, _⟩ => ⟨S262144x100, .f32⟩
  | .hbm, ⟨68, _⟩ => ⟨S262144x100, .f32⟩
  | .hbm, ⟨69, _⟩ => ⟨S_, .f32⟩
  | .hbm, ⟨70, _⟩ => ⟨S262144x100, .f32⟩
  | .hbm, ⟨71, _⟩ => ⟨S262144x100, .f32⟩
  | .hbm, ⟨72, _⟩ => ⟨S_, .f32⟩
  | .hbm, ⟨73, _⟩ => ⟨S262144x100, .f32⟩
  | .hbm, ⟨74, _⟩ => ⟨S262144x100, .f32⟩
  | .hbm, ⟨75, _⟩ => ⟨S250x100, .f32⟩
  | .hbm, ⟨76, _⟩ => ⟨S262144x100, .f32⟩
  | .hbm, ⟨77, _⟩ => ⟨S100x100, .f32⟩
  | .hbm, ⟨78, _⟩ => ⟨S262144x100, .f32⟩
  | .hbm, ⟨79, _⟩ => ⟨S262144x100, .f32⟩
  | .hbm, ⟨80, _⟩ => ⟨S100x100, .f32⟩
  | .hbm, ⟨81, _⟩ => ⟨S262144x100, .f32⟩
  | .hbm, ⟨82, _⟩ => ⟨S262144x100, .f32⟩
  | .hbm, ⟨83, _⟩ => ⟨S262144x100, .f32⟩
  | .hbm, ⟨84, _⟩ => ⟨S262144x100, .f32⟩
  | .hbm, ⟨85, _⟩ => ⟨S_, .f32⟩
  | .hbm, ⟨86, _⟩ => ⟨S262144x100, .f32⟩
  | .hbm, ⟨87, _⟩ => ⟨S262144x100, .f32⟩
  | .hbm, ⟨88, _⟩ => ⟨S_, .f32⟩
  | .hbm, ⟨89, _⟩ => ⟨S262144x100, .f32⟩
  | .hbm, ⟨90, _⟩ => ⟨S262144x100, .f32⟩
  | .hbm, ⟨91, _⟩ => ⟨S250x100, .f32⟩
  | .hbm, ⟨92, _⟩ => ⟨S262144x100, .f32⟩
  | .hbm, ⟨93, _⟩ => ⟨S100x100, .f32⟩
  | .hbm, ⟨94, _⟩ => ⟨S262144x100, .f32⟩
  | .hbm, ⟨95, _⟩ => ⟨S262144x100, .f32⟩
  | .hbm, ⟨96, _⟩ => ⟨S262144x100, .f32⟩
  | .hbm, ⟨97, _⟩ => ⟨S100x100, .f32⟩
  | .hbm, ⟨98, _⟩ => ⟨S262144x100, .f32⟩
  | .hbm, ⟨99, _⟩ => ⟨S262144x100, .f32⟩
  | .hbm, ⟨100, _⟩ => ⟨S262144x100, .f32⟩
  | .hbm, ⟨101, _⟩ => ⟨S_, .f32⟩
  | .hbm, ⟨102, _⟩ => ⟨S262144x100, .f32⟩
  | .hbm, ⟨103, _⟩ => ⟨S262144x100, .f32⟩
  | .hbm, ⟨104, _⟩ => ⟨S262144x100, .f32⟩
  | .hbm, ⟨105, _⟩ => ⟨S262144x100, .f32⟩
  | .hbm, ⟨106, _⟩ => ⟨S262144x100, .f32⟩
  | _, _ => ⟨S262144x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_6 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_8 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  transposes_S300x250_S250x300_1_0 : S300x250.Transposes [1, 0] S250x300
  bcast_S300_S1x300_1 : S300.BroadcastsInDim S1x300 (![1] : Fin 1 → Fin S1x300.rank)
  bcast_S1x300_S262144x300_0_1 : S1x300.BroadcastsInDim S262144x300 (![0, 1] : Fin 2 → Fin S262144x300.rank)
  transposes_S300x100_S100x300_1_0 : S300x100.Transposes [1, 0] S100x300
  slices_S262144x300_S262144x100_0_0 : S262144x300.Slices ![0, 0] S262144x100
  slices_S262144x300_S262144x100_0_100 : S262144x300.Slices ![0, 100] S262144x100
  slices_S262144x300_S262144x100_0_200 : S262144x300.Slices ![0, 200] S262144x100
  bcast_S_S262144x100 : S_.BroadcastsInDim S262144x100 (![] : Fin 0 → Fin S262144x100.rank)
  transposes_S100x250_S250x100_1_0 : S100x250.Transposes [1, 0] S250x100
  transposes_S100x100_S100x100_1_0 : S100x100.Transposes [1, 0] S100x100
  dot_S262144x250_S250x300_S262144x300_1_0_0_1_n_n_wf : DotDims.WF S262144x250 S250x300 S262144x300 [1] [0] [0] [1] [] []
  dot_S262144x100_S100x300_S262144x300_1_0_0_1_n_n_wf : DotDims.WF S262144x100 S100x300 S262144x300 [1] [0] [0] [1] [] []
  dot_S262144x250_S250x100_S262144x100_1_0_0_1_n_n_wf : DotDims.WF S262144x250 S250x100 S262144x100 [1] [0] [0] [1] [] []
  dot_S262144x100_S100x100_S262144x100_1_0_0_1_n_n_wf : DotDims.WF S262144x100 S100x100 S262144x100 [1] [0] [0] [1] [] []

variable [Facts₀]

def dot_S262144x250_S250x300_S262144x300_1_0_0_1_n_n : DotDims S262144x250 S250x300 S262144x300 where
  lhsContracting := [1]
  rhsContracting := [0]
  lhsNonContracting := [0]
  rhsNonContracting := [1]
  lhsBatch := []
  rhsBatch := []
  wf := dot_S262144x250_S250x300_S262144x300_1_0_0_1_n_n_wf
def dot_S262144x100_S100x300_S262144x300_1_0_0_1_n_n : DotDims S262144x100 S100x300 S262144x300 where
  lhsContracting := [1]
  rhsContracting := [0]
  lhsNonContracting := [0]
  rhsNonContracting := [1]
  lhsBatch := []
  rhsBatch := []
  wf := dot_S262144x100_S100x300_S262144x300_1_0_0_1_n_n_wf
def dot_S262144x250_S250x100_S262144x100_1_0_0_1_n_n : DotDims S262144x250 S250x100 S262144x100 where
  lhsContracting := [1]
  rhsContracting := [0]
  lhsNonContracting := [0]
  rhsNonContracting := [1]
  lhsBatch := []
  rhsBatch := []
  wf := dot_S262144x250_S250x100_S262144x100_1_0_0_1_n_n_wf
def dot_S262144x100_S100x100_S262144x100_1_0_0_1_n_n : DotDims S262144x100 S100x100 S262144x100 where
  lhsContracting := [1]
  rhsContracting := [0]
  lhsNonContracting := [0]
  rhsNonContracting := [1]
  lhsBatch := []
  rhsBatch := []
  wf := dot_S262144x100_S100x100_S262144x100_1_0_0_1_n_n_wf

class Facts : Prop extends Facts₀ where

variable [Facts]
-- ==== Proof.BEntry.lean ====
/-
  `Kernel`'s @main up to its one launch, and what the launch finds.

  @main first prepares the weights on the host, in thirteen operations — the four input-side matrices stacked, transposed
  and narrowed; each triple of hidden-side matrices likewise; the shared cell's hidden matrix transposed and narrowed; the
  two biases reshaped to one row — and then launches the kernel. Every one of these operations writes a buffer of its own
  (`prepared`), so a buffer outside that list, and in particular every ARGUMENT array, is found by the launch as @main
  received it (`entry_kept`). `V` names what the launch finds in every buffer, `blockAt` what a window's block holds at a
  grid point, read off its array as the launch finds it; an input window's staging buffer holds exactly that block whenever
  the body runs, whether the block was fetched at that point or is still there from an earlier one (`found_of`).
  Last, the frame claim's post — the sixteen arguments end unchanged — follows from the post of any frame run whose
  arrays are `V`'s (`kept_of`): three arguments are staged as input windows and never written back, the other thirteen are
  touched by no window at all.
-/
import proofs.«175190_j76991583748616_1_alg».proof.Proof.Gen.Kernel.Launch
import proofs.«175190_j76991583748616_1_alg».proof.Proof.Gen.Kernel.Points
import Idealize.ShloMosaic.Lib.Pipeline.FrameBody
import Idealize.ShloMosaic.Lib.StableHlo.Run

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the launch -/

/-- What core `c`'s launch finds in buffer `b`: @main's contents after the thirteen host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the thirteen host operations and then the launch, which therefore starts from `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The thirteen buffers the host operations write: one each. -/
abbrev prepared : List (Ref sig .tc) :=
  [main_v0, main_v1, main_v2, main_v3, main_v4, main_v5, main_v6, main_v7, main_v8, main_v9, main_v10, main_v11, main_v12]

/-- Each host operation writes a buffer of that list and nothing else. -/
theorem hostOps0_writes : (hostOps0 : List (HloOp τ sig (Elt F))).Forall
    fun op => op.writes ⊆ (prepared.map (Proc.devRef (τ := τ) .tc)).toFinset := by
  simp only [hostOps0, List.Forall, StableHlo.nary_writes, StableHlo.unary_writes, StableHlo.reshape_writes,
    Finset.singleton_subset_iff, List.mem_toFinset, List.mem_map]
  exact ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩,
    ⟨main_v8, by decide, rfl⟩, ⟨main_v9, by decide, rfl⟩, ⟨main_v10, by decide, rfl⟩, ⟨main_v11, by decide, rfl⟩,
    ⟨main_v12, by decide, rfl⟩⟩

/-- A buffer the host operations do not write is found by the launch as @main received it. -/
theorem entry_kept (c : Dev nD) (b : Ref sig .tc) (hb : b ∉ prepared) : V m c b = m ((c : Thread nD τ).loc b) :=
  StableHlo.after_of_writes_sub hostOps0 (fun b => m (c, b)) hostOps0_writes hb

/-! ## The windows' blocks -/

/-- Window `w`'s block at grid point `t`, read off its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- For proof data whose arrays are `V`'s and whose body leaves every input block in place, the staging buffer of an input
    window holds the window's block at every point: where the block was fetched, and where it was not (its index has not
    moved since the point that fetched it). The nine input windows one by one: that a window is an input, never idle
    and never clipped is decided on the literal window. -/
theorem found0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem found8 {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- An argument staged as an input window (the input rows, the previous hidden rows, the previous shared rows) is never
    written back, so after a frame run it holds what the launch found, which is what @main received. -/
theorem staged_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (entry_kept m c main_arg0 (by decide)))),
    ((h c).1 1).trans (((dats 0 c).arrAt_in 1 rfl _).trans ((hA c 1).trans (entry_kept m c main_arg1 (by decide)))),
    ((h c).1 2).trans (((dats 0 c).arrAt_in 2 rfl _).trans ((hA c 2).trans (entry_kept m c main_arg2 (by decide))))⟩

/-- An argument no window stages (a weight matrix or a bias: the kernel reads its prepared copy) is left as the launch
    found it, which is as @main received it. -/
theorem unstaged_kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD)
    (b : Ref sig .tc) (hs : b.isScoped = false) (ha : ∀ w, (spec0 w).arr.view.ref ≠ b) (hb : b ∉ prepared) :
    r.2.mem ((c.tc : Thread nD τ).loc b) = m ((c.tc : Thread nD τ).loc b) :=
  ((h c).2 b (Pipeline.mem_restRefs_of b hs ha)).trans (entry_kept m c b hb)

/-- After a frame run whose arrays are `V`'s, on every core the sixteen arguments hold what @main received. -/
theorem kept_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨(staged_kept m dats hA r h c).1, (staged_kept m dats hA r h c).2.1, (staged_kept m dats hA r h c).2.2,
    unstaged_kept m dats r h c main_arg3 (by decide) (by decide) (by decide),
    unstaged_kept m dats r h c main_arg4 (by decide) (by decide) (by decide),
    unstaged_kept m dats r h c main_arg5 (by decide) (by decide) (by decide),
    unstaged_kept m dats r h c main_arg6 (by decide) (by decide) (by decide),
    unstaged_kept m dats r h c main_arg7 (by decide) (by decide) (by decide),
    unstaged_kept m dats r h c main_arg8 (by decide) (by decide) (by decide),
    unstaged_kept m dats r h c main_arg9 (by decide) (by decide) (by decide),
    unstaged_kept m dats r h c main_arg10 (by decide) (by decide) (by decide),
    unstaged_kept m dats r h c main_arg11 (by decide) (by decide) (by decide),
    unstaged_kept m dats r h c main_arg12 (by decide) (by decide) (by decide),
    unstaged_kept m dats r h c main_arg13 (by decide) (by decide) (by decide),
    unstaged_kept m dats r h c main_arg14 (by decide) (by decide) (by decide),
    unstaged_kept m dats r h c main_arg15 (by decide) (by decide) (by decide)⟩

/-- THE FRAME from a frame run: if every weakly fair execution ends in the frame post of proof data whose arrays are
    `V`'s, then it ends with the sixteen arguments unchanged. -/
theorem kept_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept_post m dats hA r h c) h

end Cert.Kernel.Frame

end
-- ==== Proof.BBody.lean ====
/-
  The kernel body, run once on its staging buffers.

  The body reads its nine input buffers whole — the block of input rows, of previous hidden rows and of previous shared
  rows, the four prepared weight matrices and the two one-row biases —, computes the new hidden rows of the block, and
  stores them over the whole output buffer in one store (it also loads the output buffer once, a value it never uses).
  So whatever the output buffer held, after the body it holds `stored` of the nine input blocks: the one stored value,
  whose arithmetic the program's skeleton names `k0_pay1 … k0_pay7`, laid over the buffer; and every input buffer holds
  what it held (`body_runs`).
-/
import proofs.«175190_j76991583748616_1_alg».proof.Proof.Gen.Kernel.Skeleton
import proofs.«175190_j76991583748616_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev wholeX : Rect S2048x250 := Rect.unit (s := S2048x250) ![0, 0] S2048x250.size inb_S2048x250_S2048x250_0_0
abbrev wholeH : Rect S2048x100 := Rect.unit (s := S2048x100) ![0, 0] S2048x100.size inb_S2048x100_S2048x100_0_0
abbrev wholeWx : Rect S250x600 := Rect.unit (s := S250x600) ![0, 0] S250x600.size inb_S250x600_S250x600_0_0
abbrev wholeU : Rect S100x300 := Rect.unit (s := S100x300) ![0, 0] S100x300.size inb_S100x300_S100x300_0_0
abbrev wholeB : Rect S1x300 := Rect.unit (s := S1x300) ![0, 0] S1x300.size inb_S1x300_S1x300_0_0

/-! ## What the body leaves in the output buffer -/

/-- The output buffer after the body, from the nine input blocks: the one stored value laid over the whole buffer. -/
def stored (x0 : Vec F S2048x250 .f32) (x1 x2 : Vec F S2048x100 .f32) (x3 : Vec F S250x600 .bf16)
    (x4 x5 x6 : Vec F S100x300 .bf16) (x7 x8 : Vec F S1x300 .f32) : Vec F S2048x100 .f32 :=
  View.canon [⟨wholeH, k0_pay1 (View.ld x1 wholeH) (k0_pay2 (View.ld x1 wholeH)) (k0_pay4 (View.ld x0 wholeX) (View.ld x3 wholeWx))
    (k0_pay5 (View.ld x0 wholeX) (View.ld x3 wholeWx)) (k0_pay6 (View.ld x0 wholeX) (View.ld x3 wholeWx))
    (k0_pay7 (View.ld x0 wholeX) (View.ld x2 wholeH) (View.ld x3 wholeWx) (View.ld x5 wholeU) (View.ld x8 wholeB) (View.ld x7 wholeB))
    (View.ld x4 wholeU) (View.ld x6 wholeU)⟩]

/-- The one store covers the buffer. -/
theorem stored_covers (p0 : Vec F S2048x100 .f32) (y : S2048x100.Idx) :
    ∃ pc ∈ ([⟨wholeH, p0⟩] : List (View.Piece (Elt F) S2048x100 .f32)), y ∈ pc.1.set :=
  View.cover_of_tiled [⟨wholeH, p0⟩] S2048x100.size (by rfl) y

/-! ## The body's triple -/

set_option maxHeartbeats 2000000 in
/-- The body on whole staging buffers, the nine inputs' at contents `x0 … x8` and the output's at anything, runs to a
    continuation that holds the inputs' as they were and the output's at `stored x0 … x8`. -/
theorem body_runs (c : Dev nD) (E : Set ℕ) (i : grid0.Coords)
    (arg1 : Memref sig .tc .vmem S2048x250 .f32) (harg1 : arg1.IsWhole) (arg2 : Memref sig .tc .vmem S2048x100 .f32) (harg2 : arg2.IsWhole)
    (arg3 : Memref sig .tc .vmem S2048x100 .f32) (harg3 : arg3.IsWhole) (arg4 : Memref sig .tc .vmem S250x600 .bf16) (harg4 : arg4.IsWhole)
    (arg5 : Memref sig .tc .vmem S100x300 .bf16) (harg5 : arg5.IsWhole) (arg6 : Memref sig .tc .vmem S100x300 .bf16) (harg6 : arg6.IsWhole)
    (arg7 : Memref sig .tc .vmem S100x300 .bf16) (harg7 : arg7.IsWhole) (arg8 : Memref sig .tc .vmem S1x300 .f32) (harg8 : arg8.IsWhole)
    (arg9 : Memref sig .tc .vmem S1x300 .f32) (harg9 : arg9.IsWhole) (arg10 : Memref sig .tc .vmem S2048x100 .f32) (harg10 : arg10.IsWhole)
    (x0 : Vec F S2048x250 .f32) (x1 x2 : Vec F S2048x100 .f32) (x3 : Vec F S250x600 .bf16)
    (x4 x5 x6 : Vec F S100x300 .bf16) (x7 x8 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (stored x0 x1 x2 x3 x4 x5 x6 x7 x8)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9 arg10 harg10) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (stored_covers _)

end Cert.Kernel.Frame

end
-- ==== Proof.BFrame.lean ====
/-
  `Kernel` runs to the end, faults nowhere, and leaves its arguments unchanged.

  The launch walks 128 grid points; at point `t` it hands the body the blocks of input rows, previous hidden rows and
  previous shared rows at `t`, the four prepared matrices and the two biases (fetched once, at the first point, and found
  in place ever after), and an output buffer; after the body it writes the output buffer back as block `t` of the result.
  The proof data says what each staging buffer holds after the body: an input's buffer its block, untouched; the output's
  buffer `stored` of the nine input blocks. With the body's triple this discharges the launch's obligation at
  every point, and the library's frame run gives the run and its post (`run_main`): every array of the launch at what the
  proof data makes of it, every other buffer as the launch found it. The frame claim is read off that post (`frame`).
-/
import proofs.«175190_j76991583748616_1_alg».proof.Proof.BEntry
import proofs.«175190_j76991583748616_1_alg».proof.Proof.BBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the launch on core `c` knows at every point: its arrays are what it found (`V`); after the body at point `t`
    an input's staging buffer holds its block and the output's holds `stored` of the nine input blocks; the body may use
    the core's scoped rest and generator register and describes neither; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => stored (blockAt m c 0 t) (blockAt m c 1 t) (blockAt m c 2 t) (blockAt m c 3 t) (blockAt m c 4 t)
        (blockAt m c 5 t) (blockAt m c 6 t) (blockAt m c 7 t) (blockAt m c 8 t)
  Φ _ := Pipeline.ΦA spec0 c
  q _ := fullShare
  owed _ := 0

/-- The proof data's arrays are what the launch found. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = blockAt m c 8 t := by dsimp only [dats]
theorem after9 (c : Dev nD) (t : Fin cfg0.N) :
    (dats m 0 c).after 9 t = stored (blockAt m c 0 t) (blockAt m c 1 t) (blockAt m c 2 t) (blockAt m c 3 t) (blockAt m c 4 t)
      (blockAt m c 5 t) (blockAt m c 6 t) (blockAt m c 7 t) (blockAt m c 8 t) := by dsimp only [dats]

/-- Each input's staging buffer holds its block whenever the body runs. -/
theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d
theorem before3 (c : Dev nD) (t : Fin cfg0.N) (d) : (dats m 0 c).before 3 t d = blockAt m c 3 t :=
  found3 m (dats m 0 c) (A_eq m c 3) (after3 m c) t d
theorem before4 (c : Dev nD) (t : Fin cfg0.N) (d) : (dats m 0 c).before 4 t d = blockAt m c 4 t :=
  found4 m (dats m 0 c) (A_eq m c 4) (after4 m c) t d
theorem before5 (c : Dev nD) (t : Fin cfg0.N) (d) : (dats m 0 c).before 5 t d = blockAt m c 5 t :=
  found5 m (dats m 0 c) (A_eq m c 5) (after5 m c) t d
theorem before6 (c : Dev nD) (t : Fin cfg0.N) (d) : (dats m 0 c).before 6 t d = blockAt m c 6 t :=
  found6 m (dats m 0 c) (A_eq m c 6) (after6 m c) t d
theorem before7 (c : Dev nD) (t : Fin cfg0.N) (d) : (dats m 0 c).before 7 t d = blockAt m c 7 t :=
  found7 m (dats m 0 c) (A_eq m c 7) (after7 m c) t d
theorem before8 (c : Dev nD) (t : Fin cfg0.N) (d) : (dats m 0 c).before 8 t d = blockAt m c 8 t :=
  found8 m (dats m 0 c) (A_eq m c 8) (after8 m c) t d

/-! ## The body at a grid point -/

/-- What the body is called with at point `t`: the invariant, what is owed, and each window's current staging buffer
    at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the same with each staging buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and what
    is owed pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ _ _ _ _ _ _ _ _ _ _ _ _ _ _ _ _ _ _ _ _ _ (blockAt m c 0 t) (blockAt m c 1 t) (blockAt m c 2 t)
    (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's obligation on the body, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- For any values, from any memory with zero counters: every weakly fair execution of @main terminates, and every final
    state has every array of the launch at what the proof data makes of it and every other unscoped buffer as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: @main runs to the end and its sixteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  kept_of m ρ (dats m) (A_eq m) (run_main m ρ)

end Cert.Kernel.Frame

end
-- ==== Proof.KEntry.lean ====
/-
  `KernelIdeal`'s @main up to its one launch, and what the launch finds.

  @main first prepares the weights on the host, in thirteen operations — the four input-side matrices stacked, transposed
  and narrowed; each triple of hidden-side matrices likewise; the shared cell's hidden matrix transposed and narrowed; the
  two biases reshaped to one row — and then launches the kernel. Every one of these operations writes a buffer of its own
  (`prepared`), so a buffer outside that list, and in particular every ARGUMENT array, is found by the launch as @main
  received it (`entry_kept`). `V` names what the launch finds in every buffer, `blockAt` what a window's block holds at a
  grid point, read off its array as the launch finds it; an input window's staging buffer holds exactly that block whenever
  the body runs, whether the block was fetched at that point or is still there from an earlier one (`found_of`).
  Last, the frame claim's post — the sixteen arguments end unchanged — follows from the post of any frame run whose
  arrays are `V`'s (`kept_of`): three arguments are staged as input windows and never written back, the other thirteen are
  touched by no window at all.
-/
import proofs.«175190_j76991583748616_1_alg».proof.Proof.Gen.KernelIdeal.Launch
import proofs.«175190_j76991583748616_1_alg».proof.Proof.Gen.KernelIdeal.Points
import Idealize.ShloMosaic.Lib.Pipeline.FrameBody
import Idealize.ShloMosaic.Lib.StableHlo.Run

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the launch -/

/-- What core `c`'s launch finds in buffer `b`: @main's contents after the thirteen host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the thirteen host operations and then the launch, which therefore starts from `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The thirteen buffers the host operations write: one each. -/
abbrev prepared : List (Ref sig .tc) :=
  [main_v0, main_v1, main_v2, main_v3, main_v4, main_v5, main_v6, main_v7, main_v8, main_v9, main_v10, main_v11, main_v12]

/-- Each host operation writes a buffer of that list and nothing else. -/
theorem hostOps0_writes : (hostOps0 : List (HloOp τ sig (Elt F))).Forall
    fun op => op.writes ⊆ (prepared.map (Proc.devRef (τ := τ) .tc)).toFinset := by
  simp only [hostOps0, List.Forall, StableHlo.nary_writes, StableHlo.unary_writes, StableHlo.reshape_writes,
    Finset.singleton_subset_iff, List.mem_toFinset, List.mem_map]
  exact ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩,
    ⟨main_v8, by decide, rfl⟩, ⟨main_v9, by decide, rfl⟩, ⟨main_v10, by decide, rfl⟩, ⟨main_v11, by decide, rfl⟩,
    ⟨main_v12, by decide, rfl⟩⟩

/-- A buffer the host operations do not write is found by the launch as @main received it. -/
theorem entry_kept (c : Dev nD) (b : Ref sig .tc) (hb : b ∉ prepared) : V m c b = m ((c : Thread nD τ).loc b) :=
  StableHlo.after_of_writes_sub hostOps0 (fun b => m (c, b)) hostOps0_writes hb

/-! ## The windows' blocks -/

/-- Window `w`'s block at grid point `t`, read off its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- For proof data whose arrays are `V`'s and whose body leaves every input block in place, the staging buffer of an input
    window holds the window's block at every point: where the block was fetched, and where it was not (its index has not
    moved since the point that fetched it). The nine input windows one by one: that a window is an input, never idle
    and never clipped is decided on the literal window. -/
theorem found0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem found8 {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- An argument staged as an input window (the input rows, the previous hidden rows, the previous shared rows) is never
    written back, so after a frame run it holds what the launch found, which is what @main received. -/
theorem staged_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (entry_kept m c main_arg0 (by decide)))),
    ((h c).1 1).trans (((dats 0 c).arrAt_in 1 rfl _).trans ((hA c 1).trans (entry_kept m c main_arg1 (by decide)))),
    ((h c).1 2).trans (((dats 0 c).arrAt_in 2 rfl _).trans ((hA c 2).trans (entry_kept m c main_arg2 (by decide))))⟩

/-- An argument no window stages (a weight matrix or a bias: the kernel reads its prepared copy) is left as the launch
    found it, which is as @main received it. -/
theorem unstaged_kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD)
    (b : Ref sig .tc) (hs : b.isScoped = false) (ha : ∀ w, (spec0 w).arr.view.ref ≠ b) (hb : b ∉ prepared) :
    r.2.mem ((c.tc : Thread nD τ).loc b) = m ((c.tc : Thread nD τ).loc b) :=
  ((h c).2 b (Pipeline.mem_restRefs_of b hs ha)).trans (entry_kept m c b hb)

/-- After a frame run whose arrays are `V`'s, on every core the sixteen arguments hold what @main received. -/
theorem kept_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨(staged_kept m dats hA r h c).1, (staged_kept m dats hA r h c).2.1, (staged_kept m dats hA r h c).2.2,
    unstaged_kept m dats r h c main_arg3 (by decide) (by decide) (by decide),
    unstaged_kept m dats r h c main_arg4 (by decide) (by decide) (by decide),
    unstaged_kept m dats r h c main_arg5 (by decide) (by decide) (by decide),
    unstaged_kept m dats r h c main_arg6 (by decide) (by decide) (by decide),
    unstaged_kept m dats r h c main_arg7 (by decide) (by decide) (by decide),
    unstaged_kept m dats r h c main_arg8 (by decide) (by decide) (by decide),
    unstaged_kept m dats r h c main_arg9 (by decide) (by decide) (by decide),
    unstaged_kept m dats r h c main_arg10 (by decide) (by decide) (by decide),
    unstaged_kept m dats r h c main_arg11 (by decide) (by decide) (by decide),
    unstaged_kept m dats r h c main_arg12 (by decide) (by decide) (by decide),
    unstaged_kept m dats r h c main_arg13 (by decide) (by decide) (by decide),
    unstaged_kept m dats r h c main_arg14 (by decide) (by decide) (by decide),
    unstaged_kept m dats r h c main_arg15 (by decide) (by decide) (by decide)⟩

/-- THE FRAME from a frame run: if every weakly fair execution ends in the frame post of proof data whose arrays are
    `V`'s, then it ends with the sixteen arguments unchanged. -/
theorem kept_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept_post m dats hA r h c) h

end Cert.KernelIdeal.Frame

end
-- ==== Proof.KBody.lean ====
/-
  The kernel body, run once on its staging buffers.

  The body reads its nine input buffers whole — the block of input rows, of previous hidden rows and of previous shared
  rows, the four prepared weight matrices and the two one-row biases —, computes the new hidden rows of the block, and
  stores them over the whole output buffer in one store (it also loads the output buffer once, a value it never uses).
  So whatever the output buffer held, after the body it holds `stored` of the nine input blocks: the one stored value,
  whose arithmetic the program's skeleton names `k0_pay1 … k0_pay7`, laid over the buffer; and every input buffer holds
  what it held (`body_runs`).
-/
import proofs.«175190_j76991583748616_1_alg».proof.Proof.Gen.KernelIdeal.Skeleton
import proofs.«175190_j76991583748616_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev wholeX : Rect S2048x250 := Rect.unit (s := S2048x250) ![0, 0] S2048x250.size inb_S2048x250_S2048x250_0_0
abbrev wholeH : Rect S2048x100 := Rect.unit (s := S2048x100) ![0, 0] S2048x100.size inb_S2048x100_S2048x100_0_0
abbrev wholeWx : Rect S250x600 := Rect.unit (s := S250x600) ![0, 0] S250x600.size inb_S250x600_S250x600_0_0
abbrev wholeU : Rect S100x300 := Rect.unit (s := S100x300) ![0, 0] S100x300.size inb_S100x300_S100x300_0_0
abbrev wholeB : Rect S1x300 := Rect.unit (s := S1x300) ![0, 0] S1x300.size inb_S1x300_S1x300_0_0

/-! ## What the body leaves in the output buffer -/

/-- The output buffer after the body, from the nine input blocks: the one stored value laid over the whole buffer. -/
def stored (x0 : Vec F S2048x250 .f32) (x1 x2 : Vec F S2048x100 .f32) (x3 : Vec F S250x600 .bf16)
    (x4 x5 x6 : Vec F S100x300 .bf16) (x7 x8 : Vec F S1x300 .f32) : Vec F S2048x100 .f32 :=
  View.canon [⟨wholeH, k0_pay1 (View.ld x1 wholeH) (k0_pay2 (View.ld x1 wholeH)) (k0_pay4 (View.ld x0 wholeX) (View.ld x3 wholeWx))
    (k0_pay5 (View.ld x0 wholeX) (View.ld x3 wholeWx)) (k0_pay6 (View.ld x0 wholeX) (View.ld x3 wholeWx))
    (k0_pay7 (View.ld x0 wholeX) (View.ld x2 wholeH) (View.ld x3 wholeWx) (View.ld x5 wholeU) (View.ld x8 wholeB) (View.ld x7 wholeB))
    (View.ld x4 wholeU) (View.ld x6 wholeU)⟩]

/-- The one store covers the buffer. -/
theorem stored_covers (p0 : Vec F S2048x100 .f32) (y : S2048x100.Idx) :
    ∃ pc ∈ ([⟨wholeH, p0⟩] : List (View.Piece (Elt F) S2048x100 .f32)), y ∈ pc.1.set :=
  View.cover_of_tiled [⟨wholeH, p0⟩] S2048x100.size (by rfl) y

/-! ## The body's triple -/

set_option maxHeartbeats 2000000 in
/-- The body on whole staging buffers, the nine inputs' at contents `x0 … x8` and the output's at anything, runs to a
    continuation that holds the inputs' as they were and the output's at `stored x0 … x8`. -/
theorem body_runs (c : Dev nD) (E : Set ℕ) (i : grid0.Coords)
    (arg1 : Memref sig .tc .vmem S2048x250 .f32) (harg1 : arg1.IsWhole) (arg2 : Memref sig .tc .vmem S2048x100 .f32) (harg2 : arg2.IsWhole)
    (arg3 : Memref sig .tc .vmem S2048x100 .f32) (harg3 : arg3.IsWhole) (arg4 : Memref sig .tc .vmem S250x600 .bf16) (harg4 : arg4.IsWhole)
    (arg5 : Memref sig .tc .vmem S100x300 .bf16) (harg5 : arg5.IsWhole) (arg6 : Memref sig .tc .vmem S100x300 .bf16) (harg6 : arg6.IsWhole)
    (arg7 : Memref sig .tc .vmem S100x300 .bf16) (harg7 : arg7.IsWhole) (arg8 : Memref sig .tc .vmem S1x300 .f32) (harg8 : arg8.IsWhole)
    (arg9 : Memref sig .tc .vmem S1x300 .f32) (harg9 : arg9.IsWhole) (arg10 : Memref sig .tc .vmem S2048x100 .f32) (harg10 : arg10.IsWhole)
    (x0 : Vec F S2048x250 .f32) (x1 x2 : Vec F S2048x100 .f32) (x3 : Vec F S250x600 .bf16)
    (x4 x5 x6 : Vec F S100x300 .bf16) (x7 x8 : Vec F S1x300 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (stored x0 x1 x2 x3 x4 x5 x6 x7 x8)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9 arg10 harg10) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (stored_covers _)

end Cert.KernelIdeal.Frame

end
-- ==== Proof.KFrame.lean ====
/-
  `KernelIdeal` runs to the end, faults nowhere, and leaves its arguments unchanged.

  The launch walks 128 grid points; at point `t` it hands the body the blocks of input rows, previous hidden rows and
  previous shared rows at `t`, the four prepared matrices and the two biases (fetched once, at the first point, and found
  in place ever after), and an output buffer; after the body it writes the output buffer back as block `t` of the result.
  The proof data says what each staging buffer holds after the body: an input's buffer its block, untouched; the output's
  buffer `stored` of the nine input blocks. With the body's triple this discharges the launch's obligation at
  every point, and the library's frame run gives the run and its post (`run_main`): every array of the launch at what the
  proof data makes of it, every other buffer as the launch found it. The frame claim is read off that post (`frame`).
-/
import proofs.«175190_j76991583748616_1_alg».proof.Proof.KEntry
import proofs.«175190_j76991583748616_1_alg».proof.Proof.KBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the launch on core `c` knows at every point: its arrays are what it found (`V`); after the body at point `t`
    an input's staging buffer holds its block and the output's holds `stored` of the nine input blocks; the body may use
    the core's scoped rest and generator register and describes neither; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => stored (blockAt m c 0 t) (blockAt m c 1 t) (blockAt m c 2 t) (blockAt m c 3 t) (blockAt m c 4 t)
        (blockAt m c 5 t) (blockAt m c 6 t) (blockAt m c 7 t) (blockAt m c 8 t)
  Φ _ := Pipeline.ΦA spec0 c
  q _ := fullShare
  owed _ := 0

/-- The proof data's arrays are what the launch found. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = blockAt m c 8 t := by dsimp only [dats]
theorem after9 (c : Dev nD) (t : Fin cfg0.N) :
    (dats m 0 c).after 9 t = stored (blockAt m c 0 t) (blockAt m c 1 t) (blockAt m c 2 t) (blockAt m c 3 t) (blockAt m c 4 t)
      (blockAt m c 5 t) (blockAt m c 6 t) (blockAt m c 7 t) (blockAt m c 8 t) := by dsimp only [dats]

/-- Each input's staging buffer holds its block whenever the body runs. -/
theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d
theorem before3 (c : Dev nD) (t : Fin cfg0.N) (d) : (dats m 0 c).before 3 t d = blockAt m c 3 t :=
  found3 m (dats m 0 c) (A_eq m c 3) (after3 m c) t d
theorem before4 (c : Dev nD) (t : Fin cfg0.N) (d) : (dats m 0 c).before 4 t d = blockAt m c 4 t :=
  found4 m (dats m 0 c) (A_eq m c 4) (after4 m c) t d
theorem before5 (c : Dev nD) (t : Fin cfg0.N) (d) : (dats m 0 c).before 5 t d = blockAt m c 5 t :=
  found5 m (dats m 0 c) (A_eq m c 5) (after5 m c) t d
theorem before6 (c : Dev nD) (t : Fin cfg0.N) (d) : (dats m 0 c).before 6 t d = blockAt m c 6 t :=
  found6 m (dats m 0 c) (A_eq m c 6) (after6 m c) t d
theorem before7 (c : Dev nD) (t : Fin cfg0.N) (d) : (dats m 0 c).before 7 t d = blockAt m c 7 t :=
  found7 m (dats m 0 c) (A_eq m c 7) (after7 m c) t d
theorem before8 (c : Dev nD) (t : Fin cfg0.N) (d) : (dats m 0 c).before 8 t d = blockAt m c 8 t :=
  found8 m (dats m 0 c) (A_eq m c 8) (after8 m c) t d

/-! ## The body at a grid point -/

/-- What the body is called with at point `t`: the invariant, what is owed, and each window's current staging buffer
    at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the same with each staging buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and what
    is owed pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ _ _ _ _ _ _ _ _ _ _ _ _ _ _ _ _ _ _ _ _ _ (blockAt m c 0 t) (blockAt m c 1 t) (blockAt m c 2 t)
    (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's obligation on the body, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- For any values, from any memory with zero counters: every weakly fair execution of @main terminates, and every final
    state has every array of the launch at what the proof data makes of it and every other unscoped buffer as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: @main runs to the end and its sixteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  kept_of m ρ (dats m) (A_eq m) (run_main m ρ)

end Cert.KernelIdeal.Frame

end
-- ==== Proof.KBlocks.lean ====
/-
  Where the blocks lie.

  The grid has 128 points. At point `t` the three row windows (input rows, previous hidden rows, previous shared rows)
  and the output window hold rows `2048 t … 2048 t + 2047` of their arrays, all columns; the six parameter windows (the
  four prepared matrices, the two one-row biases) hold their whole arrays at every point. So a row window's block read at
  `(p, k)` is its array at `(2048 t + p, k)`, a parameter window's block is its array, and the 128 output blocks, one per
  point, cover the output array: row `r` lies in the block of point `r / 2048`.
-/
import proofs.«175190_j76991583748616_1_alg».proof.Proof.KFrame
import Idealize.ShloMosaic.Lib.Pipeline.Value
import Idealize.ShloMosaic.Lib.ValueIdx

noncomputable section

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The block indices, decided over the 128 points: a row window and the output are at block row `t`, block column 0;
    a parameter window is at block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row `p` of the block of point `t`, as a row of the array. -/
def rowAt (t : Fin cfg0.N) (p : Fin 2048) : Fin 262144 :=
  ⟨2048 * t.val + p.val, by have ht : t.val < 128 := N_0 ▸ t.isLt; have hp := p.isLt; omega⟩

/-! ## The row windows -/

/-- The block of input rows at point `t`, at `(p, k)`, is the input array at row `2048 t + p`. -/
theorem rows0 (c : Dev nD) (t : Fin cfg0.N) (p : Fin 2048) (k : Fin 250) :
    (blockAt m c 0 t : S2048x250.Idx → Elt F .f32) (ix2 p k) = (V m c main_arg0 : S262144x250.Idx → Elt F .f32) (ix2 (rowAt t p) k) := by
  obtain ⟨⟨e0, e1⟩, -⟩ := block_index t
  show (V m c main_arg0 : S262144x250.Idx → Elt F .f32) (((cfg0.win 0).blk t).view.emb (ix2 p k)) = _
  refine congrArg _ (funext fun a => Fin.ext ?_)
  match a with
  | ⟨0, _⟩ => show win0_0.index t (0 : Fin 2) * 2048 + 1 * p.val = 2048 * t.val + p.val; omega
  | ⟨1, _⟩ => show win0_0.index t (1 : Fin 2) * 250 + 1 * k.val = k.val; omega

/-- The block of previous hidden rows at point `t`, at `(p, k)`, is that array at row `2048 t + p`. -/
theorem rows1 (c : Dev nD) (t : Fin cfg0.N) (p : Fin 2048) (k : Fin 100) :
    (blockAt m c 1 t : S2048x100.Idx → Elt F .f32) (ix2 p k) = (V m c main_arg1 : S262144x100.Idx → Elt F .f32) (ix2 (rowAt t p) k) := by
  obtain ⟨-, ⟨e0, e1⟩, -⟩ := block_index t
  show (V m c main_arg1 : S262144x100.Idx → Elt F .f32) (((cfg0.win 1).blk t).view.emb (ix2 p k)) = _
  refine congrArg _ (funext fun a => Fin.ext ?_)
  match a with
  | ⟨0, _⟩ => show win0_1.index t (0 : Fin 2) * 2048 + 1 * p.val = 2048 * t.val + p.val; omega
  | ⟨1, _⟩ => show win0_1.index t (1 : Fin 2) * 100 + 1 * k.val = k.val; omega

/-- The block of previous shared rows at point `t`, at `(p, k)`, is that array at row `2048 t + p`. -/
theorem rows2 (c : Dev nD) (t : Fin cfg0.N) (p : Fin 2048) (k : Fin 100) :
    (blockAt m c 2 t : S2048x100.Idx → Elt F .f32) (ix2 p k) = (V m c main_arg2 : S262144x100.Idx → Elt F .f32) (ix2 (rowAt t p) k) := by
  obtain ⟨-, -, ⟨e0, e1⟩, -⟩ := block_index t
  show (V m c main_arg2 : S262144x100.Idx → Elt F .f32) (((cfg0.win 2).blk t).view.emb (ix2 p k)) = _
  refine congrArg _ (funext fun a => Fin.ext ?_)
  match a with
  | ⟨0, _⟩ => show win0_2.index t (0 : Fin 2) * 2048 + 1 * p.val = 2048 * t.val + p.val; omega
  | ⟨1, _⟩ => show win0_2.index t (1 : Fin 2) * 100 + 1 * k.val = k.val; omega

/-! ## The parameter windows: the block is the array -/

theorem whole3 (c : Dev nD) (t : Fin cfg0.N) :
    (blockAt m c 3 t : S250x600.Idx → Elt F .bf16) = (V m c main_v2 : S250x600.Idx → Elt F .bf16) := by
  obtain ⟨-, -, -, ⟨e0, e1⟩, -⟩ := block_index t
  funext y
  show (V m c main_v2 : S250x600.Idx → Elt F .bf16) (((cfg0.win 3).blk t).view.emb y) = _
  refine congrArg _ (funext fun a => Fin.ext ?_)
  match a with
  | ⟨0, _⟩ => show win0_3.index t (0 : Fin 2) * 250 + 1 * (y 0).val = (y 0).val; omega
  | ⟨1, _⟩ => show win0_3.index t (1 : Fin 2) * 600 + 1 * (y 1).val = (y 1).val; omega

theorem whole4 (c : Dev nD) (t : Fin cfg0.N) :
    (blockAt m c 4 t : S100x300.Idx → Elt F .bf16) = (V m c main_v5 : S100x300.Idx → Elt F .bf16) := by
  obtain ⟨-, -, -, -, ⟨e0, e1⟩, -⟩ := block_index t
  funext y
  show (V m c main_v5 : S100x300.Idx → Elt F .bf16) (((cfg0.win 4).blk t).view.emb y) = _
  refine congrArg _ (funext fun a => Fin.ext ?_)
  match a with
  | ⟨0, _⟩ => show win0_4.index t (0 : Fin 2) * 100 + 1 * (y 0).val = (y 0).val; omega
  | ⟨1, _⟩ => show win0_4.index t (1 : Fin 2) * 300 + 1 * (y 1).val = (y 1).val; omega

theorem whole5 (c : Dev nD) (t : Fin cfg0.N) :
    (blockAt m c 5 t : S100x300.Idx → Elt F .bf16) = (V m c main_v7 : S100x300.Idx → Elt F .bf16) := by
  obtain ⟨-, -, -, -, -, ⟨e0, e1⟩, -⟩ := block_index t
  funext y
  show (V m c main_v7 : S100x300.Idx → Elt F .bf16) (((cfg0.win 5).blk t).view.emb y) = _
  refine congrArg _ (funext fun a => Fin.ext ?_)
  match a with
  | ⟨0, _⟩ => show win0_5.index t (0 : Fin 2) * 100 + 1 * (y 0).val = (y 0).val; omega
  | ⟨1, _⟩ => show win0_5.index t (1 : Fin 2) * 300 + 1 * (y 1).val = (y 1).val; omega

theorem whole6 (c : Dev nD) (t : Fin cfg0.N) :
    (blockAt m c 6 t : S100x300.Idx → Elt F .bf16) = (V m c main_v10 : S100x300.Idx → Elt F .bf16) := by
  obtain ⟨-, -, -, -, -, -, ⟨e0, e1⟩, -⟩ := block_index t
  funext y
  show (V m c main_v10 : S100x300.Idx → Elt F .bf16) (((cfg0.win 6).blk t).view.emb y) = _
  refine congrArg _ (funext fun a => Fin.ext ?_)
  match a with
  | ⟨0, _⟩ => show win0_6.index t (0 : Fin 2) * 100 + 1 * (y 0).val = (y 0).val; omega
  | ⟨1, _⟩ => show win0_6.index t (1 : Fin 2) * 300 + 1 * (y 1).val = (y 1).val; omega

theorem whole7 (c : Dev nD) (t : Fin cfg0.N) :
    (blockAt m c 7 t : S1x300.Idx → Elt F .f32) = (V m c main_v11 : S1x300.Idx → Elt F .f32) := by
  obtain ⟨-, -, -, -, -, -, -, ⟨e0, e1⟩, -⟩ := block_index t
  funext y
  show (V m c main_v11 : S1x300.Idx → Elt F .f32) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 300 + 1 * (y 1).val = (y 1).val; omega

theorem whole8 (c : Dev nD) (t : Fin cfg0.N) :
    (blockAt m c 8 t : S1x300.Idx → Elt F .f32) = (V m c main_v12 : S1x300.Idx → Elt F .f32) := by
  obtain ⟨-, -, -, -, -, -, -, -, ⟨e0, e1⟩, -⟩ := block_index t
  funext y
  show (V m c main_v12 : S1x300.Idx → Elt F .f32) (((cfg0.win 8).blk t).view.emb y) = _
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 300 + 1 * (y 1).val = (y 1).val; omega

/-! ## The output window -/

/-- The output block of point `t`, at `(p, q)`, sits at `(2048 t + p, q)` of the output array. -/
theorem out_at (t : Fin cfg0.N) (p : Fin 2048) (q : Fin 100) :
    ((cfg0.win 9).blk t).view.emb (ix2 p q) = (ix2 (rowAt t p) q : S262144x100.Idx) := by
  obtain ⟨-, -, -, -, -, -, -, -, -, ⟨e0, e1⟩⟩ := block_index t
  refine funext fun a => Fin.ext ?_
  match a with
  | ⟨0, _⟩ => show win0_9.index t (0 : Fin 2) * 2048 + 1 * p.val = 2048 * t.val + p.val; omega
  | ⟨1, _⟩ => show win0_9.index t (1 : Fin 2) * 100 + 1 * q.val = q.val; omega

/-- An index of the output array is in point `t`'s block iff each coordinate is in the block's range. -/
theorem mem_out_block (t : Fin cfg0.N) (i : S262144x100.Idx) :
    i ∈ ((cfg0.win 9).blk t).view.set ↔ ∀ a : Fin 2, win0_9.index t a * S2048x100.size a ≤ (i a).val
      ∧ (i a).val < win0_9.index t a * S2048x100.size a + S2048x100.size a := by
  show i ∈ ((View.whole main_v13).slice (win0_9.rect t)).set ↔ _
  rw [View.set_slice_whole, Rect.mem_set_unit]
  exact Iff.rfl

/-- Every index of the output array is in the block of some point that writes back: row `r` in that of point `r / 2048`. -/
theorem out_covered (i : S262144x100.Idx) :
    ∃ t : Fin cfg0.N, (cfg0.win 9).flush t = true ∧ i ∈ ((cfg0.win 9).blk t).view.set := by
  have hi0 : (i 0).val < 262144 := (i 0).isLt
  have hi1 : (i 1).val < 100 := (i 1).isLt
  have hN : cfg0.N = 128 := N_0
  let t : Fin cfg0.N := ⟨(i 0).val / 2048, by rw [hN]; omega⟩
  have ht : t.val = (i 0).val / 2048 := rfl
  obtain ⟨-, -, -, -, -, -, -, -, -, ⟨e0, e1⟩⟩ := block_index t
  refine ⟨t, flush0_9 t, ?_⟩
  rw [mem_out_block]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 100 ≤ (i 1).val ∧ (i 1).val < win0_9.index t (1 : Fin 2) * 100 + 100; omega

end Cert.KernelIdeal.Frame

end
-- ==== Proof.Spec.lean ====
/-
  The task-specific GRU cell as one function of its arrays, over the extended reals.

  One row of the batch at a time: from the row `x p` of the input, the row `hp p` of the previous hidden state and
  the row `hs p` of the previous shared state,

    gi  = x p · Wiᵀ + bi            gh = hs p · Whᵀ + bh                      (three gates of width 100 side by side)
    s   = (1 - σ(gi₁ + gh₁)) · tanh(gi₂ + σ(gi₀ + gh₀) · gh₂) + σ(gi₁ + gh₁) · hs p      (the shared state, renewed)
    z   = σ((x p · Wzᵀ + hp p · Uzᵀ) + s · Uszᵀ)
    r   = σ((x p · Wrᵀ + hp p · Urᵀ) + s · Usrᵀ)
    c   = tanh((x p · Whnᵀ + r · (hp p · Uhnᵀ)) + s · Ushnᵀ)
    out = (1 - z) · c + z · hp p

  with σ the logistic function. It is written twice. `cell` takes the weights as the layers hold them, one matrix per
  linear map, each applied transposed. `fused` takes them as one launch wants them: the four input-side matrices stacked
  and transposed into one 250 × 600 matrix, each triple of hidden-side matrices into one 100 × 300 matrix, the biases as
  one-row matrices. A stacked matrix is read column block by column block, so the two are the same function
  (`fused_eq_cell`): every sum over `k` has the same terms. Nothing here needs a finite entry: no sum is reordered or
  distributed. Both are generic in the number of rows and depend on row `p` only (`fused_row`), so a block of rows of
  the result is the same function of the same block of rows of the inputs.
-/
import Idealize.ShloMosaic.PureOps.Ideal
import Idealize.ShloMosaic.Lib.ValueIdx
import Idealize.ShloMosaic.Lib.IdealHost

noncomputable section

namespace Cert.Gru

open Idealize.ShloMosaic Idealize.ShloMosaic.ValueIdx

/-- An `r × c` matrix of extended reals. -/
abbrev Mat (r c : ℕ) : Type := (⟨2, ![r, c]⟩ : Shape).Idx → EReal
/-- A vector of `n` extended reals. -/
abbrev Row (n : ℕ) : Type := (⟨1, ![n]⟩ : Shape).Idx → EReal

/-- The literal one both programs subtract a gate from. -/
abbrev one : EReal := Ideal.ofBits .f32 0x3F800000#32

/-- Column `o + j` of a matrix of `w` columns made of blocks of width 100. -/
abbrev col (w o : ℕ) (ho : o + 100 ≤ w) (j : Fin 100) : Fin w := ⟨o + j.val, Nat.lt_of_lt_of_le (Nat.add_lt_add_left j.isLt o) ho⟩

/-- A column of the first 300 among 600. -/
abbrev wide (c : Fin 300) : Fin 600 := ⟨c.val, Nat.lt_trans c.isLt (by decide)⟩

/-- The host spells the logistic function out; at the extended reals that is its definition. -/
theorem logistic_spelled (t : EReal) : Ideal.div one (one + Ideal.exp (-t)) = Ideal.logistic t := by
  unfold one; rw [Ideal.ofBits_one_f32]; rfl

variable {n : ℕ}

/-- Row `p` of `a` against ROW `j` of `w`: entry `(p, j)` of `a · wᵀ`. -/
def rowDot {K J : ℕ} (a : Mat n K) (w : Mat J K) (p : Fin n) (j : Fin J) : EReal := ∑ k : Fin K, a (ix2 p k) * w (ix2 j k)

/-- Row `p` of `a` against COLUMN `q` of `b`: entry `(p, q)` of `a · b`. -/
def mm {K N : ℕ} (a : Mat n K) (b : Mat K N) (p : Fin n) (q : Fin N) : EReal := ∑ k : Fin K, a (ix2 p k) * b (ix2 k q)

/-! ## The cell over the layers' own matrices -/

section Cell

variable (x : Mat n 250) (hp hs : Mat n 100) (Wi : Mat 300 250) (Wh : Mat 300 100) (bi bh : Row 300)
  (Wz : Mat 100 250) (Uz Usz : Mat 100 100) (Wr : Mat 100 250) (Ur Usr : Mat 100 100) (Whn : Mat 100 250) (Uhn Ushn : Mat 100 100)

/-- The input-side pre-activations of the shared cell. -/
def gi (p : Fin n) (c : Fin 300) : EReal := rowDot x Wi p c + bi (ix1 c)
/-- The hidden-side pre-activations of the shared cell. -/
def gh (p : Fin n) (c : Fin 300) : EReal := rowDot hs Wh p c + bh (ix1 c)

/-- The shared state, renewed. -/
def shared (p : Fin n) (j : Fin 100) : EReal :=
  (one - Ideal.logistic (gi x Wi bi p (col 300 100 (by decide) j) + gh hs Wh bh p (col 300 100 (by decide) j)))
      * Ideal.tanh (gi x Wi bi p (col 300 200 (by decide) j)
          + Ideal.logistic (gi x Wi bi p (col 300 0 (by decide) j) + gh hs Wh bh p (col 300 0 (by decide) j)) * gh hs Wh bh p (col 300 200 (by decide) j))
    + Ideal.logistic (gi x Wi bi p (col 300 100 (by decide) j) + gh hs Wh bh p (col 300 100 (by decide) j)) * hs (ix2 p j)

/-- The task's update gate. -/
def upd (p : Fin n) (j : Fin 100) : EReal :=
  Ideal.logistic ((rowDot x Wz p j + rowDot hp Uz p j) + ∑ k : Fin 100, shared x hs Wi Wh bi bh p k * Usz (ix2 j k))
/-- The task's reset gate. -/
def rst (p : Fin n) (j : Fin 100) : EReal :=
  Ideal.logistic ((rowDot x Wr p j + rowDot hp Ur p j) + ∑ k : Fin 100, shared x hs Wi Wh bi bh p k * Usr (ix2 j k))
/-- The task's candidate state. -/
def cand (p : Fin n) (j : Fin 100) : EReal :=
  Ideal.tanh ((rowDot x Whn p j + rst x hp hs Wi Wh bi bh Wr Ur Usr p j * rowDot hp Uhn p j)
    + ∑ k : Fin 100, shared x hs Wi Wh bi bh p k * Ushn (ix2 j k))

/-- The new hidden state at `(p, j)`. -/
def cell (p : Fin n) (j : Fin 100) : EReal :=
  (one - upd x hp hs Wi Wh bi bh Wz Uz Usz p j) * cand x hp hs Wi Wh bi bh Wr Ur Usr Whn Uhn Ushn p j
    + upd x hp hs Wi Wh bi bh Wz Uz Usz p j * hp (ix2 p j)

/-- The new hidden state as an array. -/
def cellM : Mat n 100 := fun i => cell x hp hs Wi Wh bi bh Wz Uz Usz Wr Ur Usr Whn Uhn Ushn (i 0) (i 1)

end Cell

/-! ## The cell over the stacked matrices -/

section Fused

variable (x : Mat n 250) (hp hs : Mat n 100) (Wx : Mat 250 600) (Uh Wht Ush : Mat 100 300) (bi2 bh2 : Mat 1 300)

/-- The input-side pre-activations of the shared cell: the first 300 columns of `x · Wx`, plus the bias. -/
def giF (p : Fin n) (c : Fin 300) : EReal := mm x Wx p (wide c) + bi2 (ix2 0 c)
/-- The hidden-side pre-activations of the shared cell. -/
def ghF (p : Fin n) (c : Fin 300) : EReal := mm hs Wht p c + bh2 (ix2 0 c)

/-- The shared state, renewed. -/
def sharedF (p : Fin n) (j : Fin 100) : EReal :=
  (one - Ideal.logistic (giF x Wx bi2 p (col 300 100 (by decide) j) + ghF hs Wht bh2 p (col 300 100 (by decide) j)))
      * Ideal.tanh (giF x Wx bi2 p (col 300 200 (by decide) j)
          + Ideal.logistic (giF x Wx bi2 p (col 300 0 (by decide) j) + ghF hs Wht bh2 p (col 300 0 (by decide) j)) * ghF hs Wht bh2 p (col 300 200 (by decide) j))
    + Ideal.logistic (giF x Wx bi2 p (col 300 100 (by decide) j) + ghF hs Wht bh2 p (col 300 100 (by decide) j)) * hs (ix2 p j)

/-- The task's update gate. -/
def updF (p : Fin n) (j : Fin 100) : EReal :=
  Ideal.logistic ((mm x Wx p (col 600 300 (by decide) j) + mm hp Uh p (col 300 0 (by decide) j))
    + ∑ k : Fin 100, sharedF x hs Wx Wht bi2 bh2 p k * Ush (ix2 k (col 300 0 (by decide) j)))
/-- The task's reset gate. -/
def rstF (p : Fin n) (j : Fin 100) : EReal :=
  Ideal.logistic ((mm x Wx p (col 600 400 (by decide) j) + mm hp Uh p (col 300 100 (by decide) j))
    + ∑ k : Fin 100, sharedF x hs Wx Wht bi2 bh2 p k * Ush (ix2 k (col 300 100 (by decide) j)))
/-- The task's candidate state. -/
def candF (p : Fin n) (j : Fin 100) : EReal :=
  Ideal.tanh ((mm x Wx p (col 600 500 (by decide) j) + rstF x hp hs Wx Uh Wht Ush bi2 bh2 p j * mm hp Uh p (col 300 200 (by decide) j))
    + ∑ k : Fin 100, sharedF x hs Wx Wht bi2 bh2 p k * Ush (ix2 k (col 300 200 (by decide) j)))

/-- The new hidden state at `(p, j)`. -/
def fused (p : Fin n) (j : Fin 100) : EReal :=
  (one - updF x hp hs Wx Uh Wht Ush bi2 bh2 p j) * candF x hp hs Wx Uh Wht Ush bi2 bh2 p j
    + updF x hp hs Wx Uh Wht Ush bi2 bh2 p j * hp (ix2 p j)

/-- The new hidden state as an array. -/
def fusedM : Mat n 100 := fun i => fused x hp hs Wx Uh Wht Ush bi2 bh2 (i 0) (i 1)

end Fused

/-! ## The cell reads one row of the batch -/

/-- `fused` at row `p'` of one batch is `fused` at row `p` of another whose rows `p` hold the same numbers. -/
theorem fused_row {n' : ℕ} (x : Mat n 250) (hp hs : Mat n 100) (x' : Mat n' 250) (hp' hs' : Mat n' 100)
    (Wx : Mat 250 600) (Uh Wht Ush : Mat 100 300) (bi2 bh2 : Mat 1 300) (p : Fin n) (p' : Fin n')
    (hx : ∀ k, x' (ix2 p' k) = x (ix2 p k)) (hhp : ∀ k, hp' (ix2 p' k) = hp (ix2 p k)) (hhs : ∀ k, hs' (ix2 p' k) = hs (ix2 p k))
    (j : Fin 100) :
    fused x' hp' hs' Wx Uh Wht Ush bi2 bh2 p' j = fused x hp hs Wx Uh Wht Ush bi2 bh2 p j := by
  simp only [fused, updF, rstF, candF, sharedF, giF, ghF, mm, hx, hhp, hhs]

/-! ## Stacking the matrices changes nothing -/

/-- Where the stacked matrices hold the layers' matrices, transposed, block of columns by block of columns, and the
    one-row biases hold the biases, the two cells are one function. -/
theorem fused_eq_cell (x : Mat n 250) (hp hs : Mat n 100) (Wx : Mat 250 600) (Uh Wht Ush : Mat 100 300) (bi2 bh2 : Mat 1 300)
    (Wi : Mat 300 250) (Wh : Mat 300 100) (bi bh : Row 300)
    (Wz : Mat 100 250) (Uz Usz : Mat 100 100) (Wr : Mat 100 250) (Ur Usr : Mat 100 100) (Whn : Mat 100 250) (Uhn Ushn : Mat 100 100)
    (hWi : ∀ (k : Fin 250) (c : Fin 300), Wx (ix2 k (wide c)) = Wi (ix2 c k))
    (hWz : ∀ (k : Fin 250) (j : Fin 100), Wx (ix2 k (col 600 300 (by decide) j)) = Wz (ix2 j k))
    (hWr : ∀ (k : Fin 250) (j : Fin 100), Wx (ix2 k (col 600 400 (by decide) j)) = Wr (ix2 j k))
    (hWhn : ∀ (k : Fin 250) (j : Fin 100), Wx (ix2 k (col 600 500 (by decide) j)) = Whn (ix2 j k))
    (hUz : ∀ (k j : Fin 100), Uh (ix2 k (col 300 0 (by decide) j)) = Uz (ix2 j k))
    (hUr : ∀ (k j : Fin 100), Uh (ix2 k (col 300 100 (by decide) j)) = Ur (ix2 j k))
    (hUhn : ∀ (k j : Fin 100), Uh (ix2 k (col 300 200 (by decide) j)) = Uhn (ix2 j k))
    (hWh : ∀ (k : Fin 100) (c : Fin 300), Wht (ix2 k c) = Wh (ix2 c k))
    (hUsz : ∀ (k j : Fin 100), Ush (ix2 k (col 300 0 (by decide) j)) = Usz (ix2 j k))
    (hUsr : ∀ (k j : Fin 100), Ush (ix2 k (col 300 100 (by decide) j)) = Usr (ix2 j k))
    (hUshn : ∀ (k j : Fin 100), Ush (ix2 k (col 300 200 (by decide) j)) = Ushn (ix2 j k))
    (hbi : ∀ c : Fin 300, bi2 (ix2 0 c) = bi (ix1 c)) (hbh : ∀ c : Fin 300, bh2 (ix2 0 c) = bh (ix1 c))
    (p : Fin n) (j : Fin 100) :
    fused x hp hs Wx Uh Wht Ush bi2 bh2 p j = cell x hp hs Wi Wh bi bh Wz Uz Usz Wr Ur Usr Whn Uhn Ushn p j := by
  simp only [fused, updF, rstF, candF, sharedF, giF, ghF, mm, cell, upd, rst, cand, shared, gi, gh, rowDot,
    hWi, hWz, hWr, hWhn, hUz, hUr, hUhn, hWh, hUsz, hUsr, hUshn, hbi, hbh]

end Cert.Gru

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KPayload.lean ====
/-
  What the kernel body stores, entry by entry, is the cell over the stacked matrices.

  The body's one store holds, at row `p` and column `q`, an arithmetic expression in the nine blocks it loads. Over the
  extended reals every step of it reads one entry of its operands: a narrowing or widening of the format is the
  identity, a column slice at offset `o` reads column `o + q`, a one-row array broadcast over the rows reads its one
  row, a shape cast to the same shape is the identity, and a product into the zero accumulator is the plain sum over the
  contracted index. Read so, the stored entry is `Cert.Gru.fused` at `(p, q)`, term for term: no sum is reordered.

  In stages: the 250-contraction at an entry is `mm x Wx`; its three column blocks of width 100 at 300, 400, 500 are the
  input-side terms of the three task gates; its first 300 columns plus the input-side bias are `giF`, the
  100-contraction of the previous shared rows plus the hidden-side bias is `ghF`, and the first half of the body is
  `sharedF`; the second half contracts the previous hidden rows and the renewed shared rows against their stacked
  matrices and combines the gates into `fused`.
-/
import proofs.«175190_j76991583748616_1_alg».proof.Proof.Gen.KernelIdeal.Skeleton
import proofs.«175190_j76991583748616_1_alg».proof.Proof.Spec
import proofs.«175190_j76991583748616_1_alg».proof.Proof.LibDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The two dimension records are the plain "rows by columns" product -/

/-- The 250-contraction's record has the lists of the plain `2048 × 250` by `250 × 600` product. -/
theorem dot250_eq : dot_S2048x250_S250x600_S2048x600_1_0_0_1_n_n = DotDims.plain 2048 250 600 := rfl
/-- The 100-contraction's record has the lists of the plain `2048 × 100` by `100 × 300` product. -/
theorem dot100_eq : dot_S2048x100_S100x300_S2048x300_1_0_0_1_n_n = DotDims.plain 2048 100 300 := rfl

/-! ## Single operations read at an entry -/

/-- The logistic function of an array, at an entry, is the logistic function of the entry. -/
theorem logistic_apply {s : Shape} {φ : FTy} (a : FVec Ideal s φ) (i : s.Idx) : logistic a i = Ideal.logistic (a i) := rfl
/-- The hyperbolic tangent of an array, at an entry, is the hyperbolic tangent of the entry. -/
theorem tanh_apply {s : Shape} {φ : FTy} (a : FVec Ideal s φ) (i : s.Idx) : tanh a i = Ideal.tanh (a i) := rfl

/-- A block of 100 columns from `o` of a 600-column array reads column `o + q`. -/
theorem slice600_apply (o : ℕ) (ho : o + 100 ≤ 600) (V : FVec Ideal S2048x600 .f32) (h : S2048x600.Slices ![0, o] S2048x100)
    (p : Fin 2048) (q : Fin 100) :
    extractStridedSlice S2048x100 ![0, o] V h (ix2 p q) = V (ix2 p (Cert.Gru.col 600 o ho q)) :=
  slice2_axis1_apply o V h p q _ rfl

/-- A block of 100 columns from `o` of a 300-column array reads column `o + q`. -/
theorem slice300_apply (o : ℕ) (ho : o + 100 ≤ 300) (V : FVec Ideal S2048x300 .f32) (h : S2048x300.Slices ![0, o] S2048x100)
    (p : Fin 2048) (q : Fin 100) :
    extractStridedSlice S2048x100 ![0, o] V h (ix2 p q) = V (ix2 p (Cert.Gru.col 300 o ho q)) :=
  slice2_axis1_apply o V h p q _ rfl

/-- The first 300 columns of a 600-column array read the same column. -/
theorem sliceWide_apply (V : FVec Ideal S2048x600 .f32) (h : S2048x600.Slices ![0, 0] S2048x300) (p : Fin 2048) (c : Fin 300) :
    extractStridedSlice S2048x300 ![0, 0] V h (ix2 p c) = V (ix2 p (Cert.Gru.wide c)) :=
  slice2_axis1_apply 0 V h p c _ (Nat.zero_add _).symm

/-- A one-row bias spread over the 2048 rows reads, at `(p, c)`, its one row at `c`. -/
theorem biasRow_apply (b : Vec Ideal S1x300 .f32) (p : Fin 2048) (c : Fin 300) :
    broadcastTo S2048x300 (shapeCast S1x300 b shapeCasts_S1x300_S1x300) broadcasts_S1x300_S2048x300 (ix2 p c) = b (ix2 0 c) := by
  rw [shapeCast_self]
  exact broadcastTo_1b_ab_apply b _ p c

/-- The 100-contraction into the zero accumulator, at `(p, c)`: the sum over `k` of `a (p, k) · w (k, c)`. -/
theorem mm100_apply (a : FVec Ideal S2048x100 .bf16) (w : Vec Ideal S100x300 .bf16) (p : Fin 2048) (c : Fin 300) :
    matmul (F := Ideal) (φ₁ := .bf16) (φ₂ := .bf16) dot_S2048x100_S100x300_S2048x300_1_0_0_1_n_n none a
        (shapeCast S100x300 w shapeCasts_S100x300_S100x300) (constant (F := Ideal) S2048x300 .f32 0x00000000#32) (ix2 p c)
      = ∑ k : Fin 100, a (ix2 p k) * w (ix2 k c) := by
  rw [shapeCast_self, dot100_eq]
  exact Cert.GNN.matmul_plain_zero_apply none _ _ p c

/-! ## The input rows against the stacked 250 × 600 matrix -/

/-- The 250-contraction at `(p, c)` is `x · Wx` at `(p, c)`: narrowing the rows changes nothing, the sum is over `k`. -/
theorem pay3_apply (x0 : Vec Ideal S2048x250 .f32) (x3 : Vec Ideal S250x600 .bf16) (p : Fin 2048) (c : Fin 600) :
    k0_pay3 (F := Ideal) x0 x3 (ix2 p c) = Cert.Gru.mm x0 x3 p c := by
  unfold k0_pay3
  rw [shapeCast_self, dot250_eq]
  exact Cert.GNN.matmul_plain_zero_apply none _ _ p c

/-- Columns 300 … 399 of `x · Wx`: the update gate's input-side term. -/
theorem pay4_apply (x0 : Vec Ideal S2048x250 .f32) (x3 : Vec Ideal S250x600 .bf16) (p : Fin 2048) (q : Fin 100) :
    k0_pay4 (F := Ideal) x0 x3 (ix2 p q) = Cert.Gru.mm x0 x3 p (Cert.Gru.col 600 300 (by decide) q) := by
  unfold k0_pay4
  exact (slice600_apply 300 (by decide) _ _ p q).trans (pay3_apply x0 x3 p _)

/-- Columns 400 … 499 of `x · Wx`: the reset gate's input-side term. -/
theorem pay5_apply (x0 : Vec Ideal S2048x250 .f32) (x3 : Vec Ideal S250x600 .bf16) (p : Fin 2048) (q : Fin 100) :
    k0_pay5 (F := Ideal) x0 x3 (ix2 p q) = Cert.Gru.mm x0 x3 p (Cert.Gru.col 600 400 (by decide) q) := by
  unfold k0_pay5
  exact (slice600_apply 400 (by decide) _ _ p q).trans (pay3_apply x0 x3 p _)

/-- Columns 500 … 599 of `x · Wx`: the candidate's input-side term. -/
theorem pay6_apply (x0 : Vec Ideal S2048x250 .f32) (x3 : Vec Ideal S250x600 .bf16) (p : Fin 2048) (q : Fin 100) :
    k0_pay6 (F := Ideal) x0 x3 (ix2 p q) = Cert.Gru.mm x0 x3 p (Cert.Gru.col 600 500 (by decide) q) := by
  unfold k0_pay6
  exact (slice600_apply 500 (by decide) _ _ p q).trans (pay3_apply x0 x3 p _)

/-! ## The shared state, renewed -/

/-- The first 300 columns of `x · Wx` plus the input-side bias row: `giF` at `(p, c)`. -/
theorem giRow_apply (x0 : Vec Ideal S2048x250 .f32) (x3 : Vec Ideal S250x600 .bf16) (x7 : Vec Ideal S1x300 .f32) (p : Fin 2048) (c : Fin 300) :
    addf (extractStridedSlice S2048x300 ![0, 0] (k0_pay3 (F := Ideal) x0 x3) slices_S2048x600_o0_0_S2048x300)
        (broadcastTo S2048x300 (shapeCast S1x300 x7 shapeCasts_S1x300_S1x300) broadcasts_S1x300_S2048x300) (ix2 p c)
      = Cert.Gru.giF x0 x3 x7 p c := by
  rw [addf_apply, sliceWide_apply, pay3_apply, biasRow_apply]
  rfl

/-- The previous shared rows against their 100 × 300 matrix plus the hidden-side bias row: `ghF` at `(p, c)`. -/
theorem ghRow_apply (x2 : Vec Ideal S2048x100 .f32) (x5 : Vec Ideal S100x300 .bf16) (x8 : Vec Ideal S1x300 .f32) (p : Fin 2048) (c : Fin 300) :
    addf (matmul (F := Ideal) (φ₁ := .bf16) (φ₂ := .bf16) dot_S2048x100_S100x300_S2048x300_1_0_0_1_n_n none (truncf .bf16 x2 bitsLt_bf16_f32)
          (shapeCast S100x300 x5 shapeCasts_S100x300_S100x300) (constant (F := Ideal) S2048x300 .f32 0x00000000#32))
        (broadcastTo S2048x300 (shapeCast S1x300 x8 shapeCasts_S1x300_S1x300) broadcasts_S1x300_S2048x300) (ix2 p c)
      = Cert.Gru.ghF x2 x5 x8 p c := by
  rw [addf_apply, mm100_apply, biasRow_apply]
  rfl

/-- The first half of the body at `(p, q)`: with `gi`, `gh` read in their three column blocks,
    `(1 - σ(gi₁ + gh₁)) · tanh(gi₂ + σ(gi₀ + gh₀) · gh₂) + σ(gi₁ + gh₁) · hs (p, q)`, which is `sharedF`. -/
theorem pay7_apply (x0 : Vec Ideal S2048x250 .f32) (x2 : Vec Ideal S2048x100 .f32) (x3 : Vec Ideal S250x600 .bf16)
    (x5 : Vec Ideal S100x300 .bf16) (x8 x7 : Vec Ideal S1x300 .f32) (p : Fin 2048) (q : Fin 100) :
    k0_pay7 (F := Ideal) x0 x2 x3 x5 x8 x7 (ix2 p q) = Cert.Gru.sharedF x0 x2 x3 x5 x7 x8 p q := by
  unfold k0_pay7
  simp only [addf_apply, mulf_apply, subf_apply, broadcast_apply, logistic_apply, tanh_apply]
  simp only [slice300_apply 0 (by decide), slice300_apply 100 (by decide), slice300_apply 200 (by decide)]
  simp only [giRow_apply, ghRow_apply]
  rfl

/-! ## The task gates and the new hidden state -/

/-- The previous hidden rows against their stacked 100 × 300 matrix: `hp · Uh` at `(p, c)`. -/
theorem hidRow_apply (x1 : Vec Ideal S2048x100 .f32) (x4 : Vec Ideal S100x300 .bf16) (p : Fin 2048) (c : Fin 300) :
    matmul (F := Ideal) (φ₁ := .bf16) (φ₂ := .bf16) dot_S2048x100_S100x300_S2048x300_1_0_0_1_n_n none (k0_pay2 (F := Ideal) x1)
        (shapeCast S100x300 x4 shapeCasts_S100x300_S100x300) (constant (F := Ideal) S2048x300 .f32 0x00000000#32) (ix2 p c)
      = Cert.Gru.mm x1 x4 p c := by
  rw [mm100_apply]
  rfl

/-- The renewed shared rows against their stacked 100 × 300 matrix: under the sum over `k`, the left factor at
    `(p, k)` is `sharedF` at `(p, k)`. -/
theorem shRow_apply (x0 : Vec Ideal S2048x250 .f32) (x2 : Vec Ideal S2048x100 .f32) (x3 : Vec Ideal S250x600 .bf16)
    (x5 x6 : Vec Ideal S100x300 .bf16) (x8 x7 : Vec Ideal S1x300 .f32) (p : Fin 2048) (c : Fin 300) :
    matmul (F := Ideal) (φ₁ := .bf16) (φ₂ := .bf16) dot_S2048x100_S100x300_S2048x300_1_0_0_1_n_n none
        (truncf .bf16 (k0_pay7 (F := Ideal) x0 x2 x3 x5 x8 x7) bitsLt_bf16_f32)
        (shapeCast S100x300 x6 shapeCasts_S100x300_S100x300) (constant (F := Ideal) S2048x300 .f32 0x00000000#32) (ix2 p c)
      = ∑ k : Fin 100, Cert.Gru.sharedF x0 x2 x3 x5 x7 x8 p k * x6 (ix2 k c) := by
  rw [mm100_apply]
  exact Finset.sum_congr rfl fun k _ => congrArg (· * x6 (ix2 k c)) (pay7_apply x0 x2 x3 x5 x8 x7 p k)

/-- The stored entry at `(p, q)` is the cell over the stacked matrices: with `z = σ((a₃ + u₀) + s₀)`,
    `r = σ((a₄ + u₁) + s₁)` and `c = tanh((a₅ + r · u₂) + s₂)`, where `a`, `u`, `s` are the column blocks of `x · Wx`,
    `hp · Uh` and `sharedF · Ush`, it is `(1 - z) · c + z · hp (p, q)`. -/
theorem payload_eq_fused (x0 : Vec Ideal S2048x250 .f32) (x1 x2 : Vec Ideal S2048x100 .f32) (x3 : Vec Ideal S250x600 .bf16)
    (x4 x5 x6 : Vec Ideal S100x300 .bf16) (x7 x8 : Vec Ideal S1x300 .f32) (p : Fin 2048) (q : Fin 100) :
    k0_pay1 (F := Ideal) x1 (k0_pay2 (F := Ideal) x1) (k0_pay4 (F := Ideal) x0 x3) (k0_pay5 (F := Ideal) x0 x3)
        (k0_pay6 (F := Ideal) x0 x3) (k0_pay7 (F := Ideal) x0 x2 x3 x5 x8 x7) x4 x6 (ix2 p q)
      = Cert.Gru.fused x0 x1 x2 x3 x4 x5 x6 x7 x8 p q := by
  unfold k0_pay1
  simp only [addf_apply, mulf_apply, subf_apply, broadcast_apply, logistic_apply, tanh_apply]
  simp only [slice300_apply 0 (by decide), slice300_apply 100 (by decide), slice300_apply 200 (by decide)]
  simp only [hidRow_apply, shRow_apply, pay4_apply, pay5_apply, pay6_apply]
  rfl

end Cert.KernelIdeal.Payload

end
-- ==== Proof.KHost.lean ====
/-
  What the launch finds in the prepared weight buffers, entry by entry.

  Before its one launch @main prepares the weights: the four input-side matrices are stacked along their rows
  (300 + 100 + 100 + 100 = 600 rows of 250), the stack is transposed (250 × 600) and narrowed; each triple of hidden-side
  matrices is stacked (100 + 100 + 100 = 300 rows of 100), transposed (100 × 300) and narrowed; the shared cell's hidden
  matrix is transposed (100 × 300) and narrowed; each bias of 300 entries is reshaped to one row (1 × 300).
  Over the extended reals a narrowing is the identity, a transposed matrix at (k, n) is the matrix at (n, k), a stack at
  row `pre + j` is row `j` of the piece that starts at row `pre`, and a vector reshaped to one row holds at (0, n) its
  entry n. So column `o + j` of a prepared matrix, read at row `k`, is entry (j, k) of the ARGUMENT matrix whose rows the
  stack holds from row `o` on; and the one-row biases hold the biases.
-/
import proofs.«175190_j76991583748616_1_alg».proof.Proof.KEntry
import proofs.«175190_j76991583748616_1_alg».proof.Proof.Spec
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Cert.KernelIdeal.Frame
open Idealize.ShloMosaic Idealize.ShloMosaic.TcCoe Idealize.ShloMosaic.ValueIdx
open Idealize.SL.Sem

/-! ## One lemma per kind of operation, at explicit coordinates -/

section Kinds

variable {α : Type}

/-- A transposed matrix at `(k, n)` is the matrix at `(n, k)`. -/
theorem transpose_ix2 {a b : ℕ} (x : (⟨2, ![a, b]⟩ : Shape).Idx → α)
    (h : (⟨2, ![a, b]⟩ : Shape).Transposes [1, 0] (⟨2, ![b, a]⟩ : Shape)) (k : Fin b) (n : Fin a) :
    transpose (⟨2, ![b, a]⟩ : Shape) [1, 0] x h (ix2 k n) = x (ix2 n k) :=
  transpose_apply [1, 0] x h (ix2 k n) (ix2 n k) (fun d => match d with
    | ⟨0, _⟩ => rfl
    | ⟨1, _⟩ => rfl)

/-- Matrices of one width stacked along their rows: row `i = pre + j` of the stack is row `j` of piece `k`, the
    piece before which the stack holds `pre` rows. -/
theorem stack_ix2 {R C : ℕ} (xs : List ((s : Shape) × (s.Idx → α)))
    (h : Shape.Concatenates (xs.map (·.1)) (⟨2, ![R, C]⟩ : Shape) 0)
    (k : ℕ) {r : ℕ} (x₁ : (⟨2, ![r, C]⟩ : Shape).Idx → α)
    (hxk : xs[k]? = some ⟨(⟨2, ![r, C]⟩ : Shape), x₁⟩) (pre : ℕ)
    (hpre : (((xs.take k).map (·.1)).map fun s : Shape =>
      if h : s.rank = (⟨2, ![R, C]⟩ : Shape).rank then s.size ((0 : Fin (⟨2, ![R, C]⟩ : Shape).rank).cast h.symm)
      else 0).sum = pre)
    (i : Fin R) (j : Fin r) (q : Fin C) (hi : pre + j.val = i.val) :
    concatenate (⟨2, ![R, C]⟩ : Shape) 0 xs h (ix2 i q) = x₁ (ix2 j q) :=
  have ⟨hk, hx⟩ := List.getElem?_eq_some_iff.1 hxk
  concatenate_apply_piece 0 xs h (ix2 i q) k hk (⟨2, ![r, C]⟩ : Shape) x₁ hx rfl pre hpre (ix2 j q)
    (fun d hd => match d, hd with
      | ⟨0, _⟩, hd => absurd rfl hd
      | ⟨1, _⟩, _ => rfl)
    hi

/-- A vector reshaped to one row holds at `(0, n)` its entry `n`. -/
theorem row_ix2 {N : ℕ} (x : (⟨1, ![N]⟩ : Shape).Idx → α)
    (h : (⟨1, ![N]⟩ : Shape).ShapeCasts (⟨2, ![1, N]⟩ : Shape)) (n : Fin N) :
    shapeCast (⟨2, ![1, N]⟩ : Shape) x h (ix2 0 n) = x (ix1 n) :=
  shapeCast_apply x h (ix2 0 n) (ix1 n) (by
    rw [Shape.rowMajor_val_two, Shape.rowMajor_val_one]
    show n.val = 0 * N + n.val
    omega)

end Kinds

/-! ## The prepared buffers as the operations' terms of the arguments

Each prepared buffer is written once, by the last operation of its chain, and every operation of a chain reads the
buffer the one before it wrote or an argument; so what the launch finds in it is the chain's term of the arguments. -/

variable (m : (ℓ : Loc nD τ sig) → Buf (Elt Ideal) ℓ) (c : Dev nD)

/-- The four input-side matrices as @main received them, in the order they are stacked: the shared cell's (300 rows), then
    the update gate's, the reset gate's and the candidate's (100 rows each). -/
abbrev inputSide : List ((s : Shape) × (s.Idx → EReal)) :=
  [⟨S300x250, (m ((c : Thread nD τ).loc main_arg3) : S300x250.Idx → EReal)⟩,
   ⟨S100x250, (m ((c : Thread nD τ).loc main_arg7) : S100x250.Idx → EReal)⟩,
   ⟨S100x250, (m ((c : Thread nD τ).loc main_arg10) : S100x250.Idx → EReal)⟩,
   ⟨S100x250, (m ((c : Thread nD τ).loc main_arg13) : S100x250.Idx → EReal)⟩]

/-- The three hidden-side matrices as @main received them, in the order they are stacked: update gate, reset gate,
    candidate. -/
abbrev hiddenSide : List ((s : Shape) × (s.Idx → EReal)) :=
  [⟨S100x100, (m ((c : Thread nD τ).loc main_arg8) : S100x100.Idx → EReal)⟩,
   ⟨S100x100, (m ((c : Thread nD τ).loc main_arg11) : S100x100.Idx → EReal)⟩,
   ⟨S100x100, (m ((c : Thread nD τ).loc main_arg14) : S100x100.Idx → EReal)⟩]

/-- The three shared-side matrices as @main received them, in the order they are stacked: update gate, reset gate,
    candidate. -/
abbrev sharedSide : List ((s : Shape) × (s.Idx → EReal)) :=
  [⟨S100x100, (m ((c : Thread nD τ).loc main_arg9) : S100x100.Idx → EReal)⟩,
   ⟨S100x100, (m ((c : Thread nD τ).loc main_arg12) : S100x100.Idx → EReal)⟩,
   ⟨S100x100, (m ((c : Thread nD τ).loc main_arg15) : S100x100.Idx → EReal)⟩]

/-- The input-side weights: the four input-side matrices stacked, the stack transposed and narrowed. -/
theorem v2_eq : @Eq (S250x600.Idx → EReal) (V m c main_v2)
    (truncf (F := Ideal) .bf16
      (transpose S250x600 [1, 0]
        (concatenate S600x250 0 (inputSide m c) concatenates_S300x250_S100x250_S100x250_S100x250_S600x250_d0)
        transposes_S600x250_S250x600_1_0)
      bitsLt_bf16_f32) := by
  dsimp only [V, hostOps0]; after_results; rfl

/-- The hidden-side weights: the three hidden-side matrices stacked, the stack transposed and narrowed. -/
theorem v5_eq : @Eq (S100x300.Idx → EReal) (V m c main_v5)
    (truncf (F := Ideal) .bf16
      (transpose S100x300 [1, 0]
        (concatenate S300x100 0 (hiddenSide m c) concatenates_S100x100_S100x100_S100x100_S300x100_d0)
        transposes_S300x100_S100x300_1_0)
      bitsLt_bf16_f32) := by
  dsimp only [V, hostOps0]; after_results; rfl

/-- The shared cell's hidden-side weights: its matrix transposed and narrowed. -/
theorem v7_eq : @Eq (S100x300.Idx → EReal) (V m c main_v7)
    (truncf (F := Ideal) .bf16
      (transpose S100x300 [1, 0] (m ((c : Thread nD τ).loc main_arg4) : S300x100.Idx → EReal)
        transposes_S300x100_S100x300_1_0)
      bitsLt_bf16_f32) := by
  dsimp only [V, hostOps0]; after_results

/-- The shared-side weights: the three shared-side matrices stacked, the stack transposed and narrowed. -/
theorem v10_eq : @Eq (S100x300.Idx → EReal) (V m c main_v10)
    (truncf (F := Ideal) .bf16
      (transpose S100x300 [1, 0]
        (concatenate S300x100 0 (sharedSide m c) concatenates_S100x100_S100x100_S100x100_S300x100_d0)
        transposes_S300x100_S100x300_1_0)
      bitsLt_bf16_f32) := by
  dsimp only [V, hostOps0]; after_results; rfl

/-- The input-side bias as one row. -/
theorem v11_eq : @Eq (S1x300.Idx → EReal) (V m c main_v11)
    (shapeCast S1x300 (m ((c : Thread nD τ).loc main_arg5) : S300.Idx → EReal) shapeCasts_S300_S1x300) := by
  dsimp only [V, hostOps0]; after_results; rfl

/-- The hidden-side bias as one row. -/
theorem v12_eq : @Eq (S1x300.Idx → EReal) (V m c main_v12)
    (shapeCast S1x300 (m ((c : Thread nD τ).loc main_arg6) : S300.Idx → EReal) shapeCasts_S300_S1x300) := by
  dsimp only [V, hostOps0]; after_results; rfl

/-! ## Entry by entry

In each: the prepared buffer is its term; the narrowing is the identity; the transposed stack at `(k, o + j)` is the
stack at `(o + j, k)`; and row `o + j` of the stack is row `j` of the piece that starts at row `o`. -/

/-- Columns 0 to 299 of the input-side weights hold the shared cell's input matrix, transposed. -/
theorem Wx_i (k : Fin 250) (n : Fin 300) :
    (V m c main_v2 : S250x600.Idx → EReal) (ix2 k (Cert.Gru.wide n))
      = (m ((c : Thread nD τ).loc main_arg3) : S300x250.Idx → EReal) (ix2 n k) :=
  (congrFun (v2_eq m c) (ix2 k (Cert.Gru.wide n))).trans
    ((transpose_ix2 (concatenate S600x250 0 (inputSide m c) concatenates_S300x250_S100x250_S100x250_S100x250_S600x250_d0)
        transposes_S600x250_S250x600_1_0 k (Cert.Gru.wide n)).trans
      (stack_ix2 (inputSide m c) concatenates_S300x250_S100x250_S100x250_S100x250_S600x250_d0 0
        (m ((c : Thread nD τ).loc main_arg3) : S300x250.Idx → EReal) rfl 0 rfl
        (Cert.Gru.wide n) n k (Nat.zero_add _)))

/-- Columns 300 to 399 hold the update gate's input matrix, transposed. -/
theorem Wx_z (k : Fin 250) (j : Fin 100) :
    (V m c main_v2 : S250x600.Idx → EReal) (ix2 k (Cert.Gru.col 600 300 (by decide) j))
      = (m ((c : Thread nD τ).loc main_arg7) : S100x250.Idx → EReal) (ix2 j k) :=
  (congrFun (v2_eq m c) (ix2 k (Cert.Gru.col 600 300 (by decide) j))).trans
    ((transpose_ix2 (concatenate S600x250 0 (inputSide m c) concatenates_S300x250_S100x250_S100x250_S100x250_S600x250_d0)
        transposes_S600x250_S250x600_1_0 k (Cert.Gru.col 600 300 (by decide) j)).trans
      (stack_ix2 (inputSide m c) concatenates_S300x250_S100x250_S100x250_S100x250_S600x250_d0 1
        (m ((c : Thread nD τ).loc main_arg7) : S100x250.Idx → EReal) rfl 300 rfl
        (Cert.Gru.col 600 300 (by decide) j) j k rfl))

/-- Columns 400 to 499 hold the reset gate's input matrix, transposed. -/
theorem Wx_r (k : Fin 250) (j : Fin 100) :
    (V m c main_v2 : S250x600.Idx → EReal) (ix2 k (Cert.Gru.col 600 400 (by decide) j))
      = (m ((c : Thread nD τ).loc main_arg10) : S100x250.Idx → EReal) (ix2 j k) :=
  (congrFun (v2_eq m c) (ix2 k (Cert.Gru.col 600 400 (by decide) j))).trans
    ((transpose_ix2 (concatenate S600x250 0 (inputSide m c) concatenates_S300x250_S100x250_S100x250_S100x250_S600x250_d0)
        transposes_S600x250_S250x600_1_0 k (Cert.Gru.col 600 400 (by decide) j)).trans
      (stack_ix2 (inputSide m c) concatenates_S300x250_S100x250_S100x250_S100x250_S600x250_d0 2
        (m ((c : Thread nD τ).loc main_arg10) : S100x250.Idx → EReal) rfl 400 rfl
        (Cert.Gru.col 600 400 (by decide) j) j k rfl))

/-- Columns 500 to 599 hold the candidate's input matrix, transposed. -/
theorem Wx_hn (k : Fin 250) (j : Fin 100) :
    (V m c main_v2 : S250x600.Idx → EReal) (ix2 k (Cert.Gru.col 600 500 (by decide) j))
      = (m ((c : Thread nD τ).loc main_arg13) : S100x250.Idx → EReal) (ix2 j k) :=
  (congrFun (v2_eq m c) (ix2 k (Cert.Gru.col 600 500 (by decide) j))).trans
    ((transpose_ix2 (concatenate S600x250 0 (inputSide m c) concatenates_S300x250_S100x250_S100x250_S100x250_S600x250_d0)
        transposes_S600x250_S250x600_1_0 k (Cert.Gru.col 600 500 (by decide) j)).trans
      (stack_ix2 (inputSide m c) concatenates_S300x250_S100x250_S100x250_S100x250_S600x250_d0 3
        (m ((c : Thread nD τ).loc main_arg13) : S100x250.Idx → EReal) rfl 500 rfl
        (Cert.Gru.col 600 500 (by decide) j) j k rfl))

/-- Columns 0 to 99 of the hidden-side weights hold the update gate's hidden matrix, transposed. -/
theorem Uh_z (k j : Fin 100) :
    (V m c main_v5 : S100x300.Idx → EReal) (ix2 k (Cert.Gru.col 300 0 (by decide) j))
      = (m ((c : Thread nD τ).loc main_arg8) : S100x100.Idx → EReal) (ix2 j k) :=
  (congrFun (v5_eq m c) (ix2 k (Cert.Gru.col 300 0 (by decide) j))).trans
    ((transpose_ix2 (concatenate S300x100 0 (hiddenSide m c) concatenates_S100x100_S100x100_S100x100_S300x100_d0)
        transposes_S300x100_S100x300_1_0 k (Cert.Gru.col 300 0 (by decide) j)).trans
      (stack_ix2 (hiddenSide m c) concatenates_S100x100_S100x100_S100x100_S300x100_d0 0
        (m ((c : Thread nD τ).loc main_arg8) : S100x100.Idx → EReal) rfl 0 rfl
        (Cert.Gru.col 300 0 (by decide) j) j k rfl))

/-- Columns 100 to 199 hold the reset gate's hidden matrix, transposed. -/
theorem Uh_r (k j : Fin 100) :
    (V m c main_v5 : S100x300.Idx → EReal) (ix2 k (Cert.Gru.col 300 100 (by decide) j))
      = (m ((c : Thread nD τ).loc main_arg11) : S100x100.Idx → EReal) (ix2 j k) :=
  (congrFun (v5_eq m c) (ix2 k (Cert.Gru.col 300 100 (by decide) j))).trans
    ((transpose_ix2 (concatenate S300x100 0 (hiddenSide m c) concatenates_S100x100_S100x100_S100x100_S300x100_d0)
        transposes_S300x100_S100x300_1_0 k (Cert.Gru.col 300 100 (by decide) j)).trans
      (stack_ix2 (hiddenSide m c) concatenates_S100x100_S100x100_S100x100_S300x100_d0 1
        (m ((c : Thread nD τ).loc main_arg11) : S100x100.Idx → EReal) rfl 100 rfl
        (Cert.Gru.col 300 100 (by decide) j) j k rfl))

/-- Columns 200 to 299 hold the candidate's hidden matrix, transposed. -/
theorem Uh_hn (k j : Fin 100) :
    (V m c main_v5 : S100x300.Idx → EReal) (ix2 k (Cert.Gru.col 300 200 (by decide) j))
      = (m ((c : Thread nD τ).loc main_arg14) : S100x100.Idx → EReal) (ix2 j k) :=
  (congrFun (v5_eq m c) (ix2 k (Cert.Gru.col 300 200 (by decide) j))).trans
    ((transpose_ix2 (concatenate S300x100 0 (hiddenSide m c) concatenates_S100x100_S100x100_S100x100_S300x100_d0)
        transposes_S300x100_S100x300_1_0 k (Cert.Gru.col 300 200 (by decide) j)).trans
      (stack_ix2 (hiddenSide m c) concatenates_S100x100_S100x100_S100x100_S300x100_d0 2
        (m ((c : Thread nD τ).loc main_arg14) : S100x100.Idx → EReal) rfl 200 rfl
        (Cert.Gru.col 300 200 (by decide) j) j k rfl))

/-- The shared cell's hidden-side weights are its matrix, transposed. -/
theorem Wh_t (k : Fin 100) (n : Fin 300) :
    (V m c main_v7 : S100x300.Idx → EReal) (ix2 k n)
      = (m ((c : Thread nD τ).loc main_arg4) : S300x100.Idx → EReal) (ix2 n k) :=
  (congrFun (v7_eq m c) (ix2 k n)).trans
    (transpose_ix2 (m ((c : Thread nD τ).loc main_arg4) : S300x100.Idx → EReal) transposes_S300x100_S100x300_1_0 k n)

/-- Columns 0 to 99 of the shared-side weights hold the update gate's shared matrix, transposed. -/
theorem Ush_z (k j : Fin 100) :
    (V m c main_v10 : S100x300.Idx → EReal) (ix2 k (Cert.Gru.col 300 0 (by decide) j))
      = (m ((c : Thread nD τ).loc main_arg9) : S100x100.Idx → EReal) (ix2 j k) :=
  (congrFun (v10_eq m c) (ix2 k (Cert.Gru.col 300 0 (by decide) j))).trans
    ((transpose_ix2 (concatenate S300x100 0 (sharedSide m c) concatenates_S100x100_S100x100_S100x100_S300x100_d0)
        transposes_S300x100_S100x300_1_0 k (Cert.Gru.col 300 0 (by decide) j)).trans
      (stack_ix2 (sharedSide m c) concatenates_S100x100_S100x100_S100x100_S300x100_d0 0
        (m ((c : Thread nD τ).loc main_arg9) : S100x100.Idx → EReal) rfl 0 rfl
        (Cert.Gru.col 300 0 (by decide) j) j k rfl))

/-- Columns 100 to 199 hold the reset gate's shared matrix, transposed. -/
theorem Ush_r (k j : Fin 100) :
    (V m c main_v10 : S100x300.Idx → EReal) (ix2 k (Cert.Gru.col 300 100 (by decide) j))
      = (m ((c : Thread nD τ).loc main_arg12) : S100x100.Idx → EReal) (ix2 j k) :=
  (congrFun (v10_eq m c) (ix2 k (Cert.Gru.col 300 100 (by decide) j))).trans
    ((transpose_ix2 (concatenate S300x100 0 (sharedSide m c) concatenates_S100x100_S100x100_S100x100_S300x100_d0)
        transposes_S300x100_S100x300_1_0 k (Cert.Gru.col 300 100 (by decide) j)).trans
      (stack_ix2 (sharedSide m c) concatenates_S100x100_S100x100_S100x100_S300x100_d0 1
        (m ((c : Thread nD τ).loc main_arg12) : S100x100.Idx → EReal) rfl 100 rfl
        (Cert.Gru.col 300 100 (by decide) j) j k rfl))

/-- Columns 200 to 299 hold the candidate's shared matrix, transposed. -/
theorem Ush_hn (k j : Fin 100) :
    (V m c main_v10 : S100x300.Idx → EReal) (ix2 k (Cert.Gru.col 300 200 (by decide) j))
      = (m ((c : Thread nD τ).loc main_arg15) : S100x100.Idx → EReal) (ix2 j k) :=
  (congrFun (v10_eq m c) (ix2 k (Cert.Gru.col 300 200 (by decide) j))).trans
    ((transpose_ix2 (concatenate S300x100 0 (sharedSide m c) concatenates_S100x100_S100x100_S100x100_S300x100_d0)
        transposes_S300x100_S100x300_1_0 k (Cert.Gru.col 300 200 (by decide) j)).trans
      (stack_ix2 (sharedSide m c) concatenates_S100x100_S100x100_S100x100_S300x100_d0 2
        (m ((c : Thread nD τ).loc main_arg15) : S100x100.Idx → EReal) rfl 200 rfl
        (Cert.Gru.col 300 200 (by decide) j) j k rfl))

/-- The one-row input-side bias holds the input-side bias. -/
theorem bi_row (n : Fin 300) :
    (V m c main_v11 : S1x300.Idx → EReal) (ix2 0 n) = (m ((c : Thread nD τ).loc main_arg5) : S300.Idx → EReal) (ix1 n) :=
  (congrFun (v11_eq m c) (ix2 0 n)).trans
    (row_ix2 (m ((c : Thread nD τ).loc main_arg5) : S300.Idx → EReal) shapeCasts_S300_S1x300 n)

/-- The one-row hidden-side bias holds the hidden-side bias. -/
theorem bh_row (n : Fin 300) :
    (V m c main_v12 : S1x300.Idx → EReal) (ix2 0 n) = (m ((c : Thread nD τ).loc main_arg6) : S300.Idx → EReal) (ix1 n) :=
  (congrFun (v12_eq m c) (ix2 0 n)).trans
    (row_ix2 (m ((c : Thread nD τ).loc main_arg6) : S300.Idx → EReal) shapeCasts_S300_S1x300 n)

end Cert.KernelIdeal.Host

end
-- ==== Proof.KResult.lean ====
/-
  What `KernelIdeal` computes, over the extended reals.

  At grid point `t` the body stores, entry `(p, q)` of its output block, the cell over the stacked matrices at row `p` of
  its row blocks (KPayload). The row blocks hold rows `2048 t + p` of the input, previous hidden and previous shared
  arrays, and the cell reads only that row, so the block written back at point `t` is block `t` of ONE array: the fused
  cell of the arrays the launch found (`flushed_cell`). The 128 blocks cover the output array, which therefore ends as
  that array (`result_fused`). What the launch found in the prepared buffers are the layers' matrices stacked and
  transposed and the biases as rows (KHost), and stacking changes nothing (`Cert.Gru.fused_eq_cell`): the output is the
  cell of the sixteen arguments as @main received them (`result_cell`), and the run ends there with the arguments
  unchanged (`run_cell`).
-/
import proofs.«175190_j76991583748616_1_alg».proof.Proof.KBlocks
import proofs.«175190_j76991583748616_1_alg».proof.Proof.KPayload
import proofs.«175190_j76991583748616_1_alg».proof.Proof.KHost
import proofs.«175190_j76991583748616_1_alg».proof.Proof.Spec

noncomputable section

namespace Cert.KernelIdeal.Result

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open Cert.Gru (Mat Row fused fusedM cell cellM)

variable (m : (ℓ : Loc nD τ sig) → Buf (Elt Ideal) ℓ) (ρ : Dev nD → PrngReg)

/-! ## The arrays the launch finds, by role -/

abbrev foundX (c : Dev nD) : Mat 262144 250 := V m c main_arg0
abbrev foundHp (c : Dev nD) : Mat 262144 100 := V m c main_arg1
abbrev foundHs (c : Dev nD) : Mat 262144 100 := V m c main_arg2
abbrev foundWx (c : Dev nD) : Mat 250 600 := V m c main_v2
abbrev foundUh (c : Dev nD) : Mat 100 300 := V m c main_v5
abbrev foundWht (c : Dev nD) : Mat 100 300 := V m c main_v7
abbrev foundUsh (c : Dev nD) : Mat 100 300 := V m c main_v10
abbrev foundBi (c : Dev nD) : Mat 1 300 := V m c main_v11
abbrev foundBh (c : Dev nD) : Mat 1 300 := V m c main_v12

/-- The fused cell of the arrays the launch finds. -/
abbrev foundCell (c : Dev nD) : Mat 262144 100 :=
  fusedM (foundX m c) (foundHp m c) (foundHs m c) (foundWx m c) (foundUh m c) (foundWht m c) (foundUsh m c) (foundBi m c) (foundBh m c)

theorem origin : (![0, 0] : Fin 2 → Nat) = fun _ => 0 := funext fun a => by fin_cases a <;> rfl

/-! ## Point by point -/

/-- What point `t` writes back is block `t` of the fused cell of the arrays the launch finds. -/
theorem flushed_cell (c : Dev nD) (t : Fin cfg0.N) :
    (dats m 0 c).flushed 9 t = ((cfg0.win 9).blk t).view.read (Elt Ideal) (foundCell m c) := by
  show (cfg0.win 9).cut (grid0.coords t) ((dats m 0 c).after 9 t) = _
  rw [after9]
  unfold stored
  rw [View.canon_unit_zero origin]
  simp only [View.ld_unit_zero (S := S2048x250) origin, View.ld_unit_zero (S := S2048x100) origin,
    View.ld_unit_zero (S := S250x600) origin, View.ld_unit_zero (S := S100x300) origin, View.ld_unit_zero (S := S1x300) origin]
  refine funext fun (y : S2048x100.Idx) => ?_
  obtain ⟨p, q, rfl⟩ : ∃ (p : Fin 2048) (q : Fin 100), y = ix2 p q := ⟨y 0, y 1, eq_ix2 y⟩
  refine (Cert.KernelIdeal.Payload.payload_eq_fused (blockAt m c 0 t) (blockAt m c 1 t) (blockAt m c 2 t) (blockAt m c 3 t)
    (blockAt m c 4 t) (blockAt m c 5 t) (blockAt m c 6 t) (blockAt m c 7 t) (blockAt m c 8 t) p q).trans ?_
  show _ = foundCell m c (((cfg0.win 9).blk t).view.emb (ix2 p q))
  rw [out_at, whole3 m c t, whole4 m c t, whole5 m c t, whole6 m c t, whole7 m c t, whole8 m c t]
  exact Cert.Gru.fused_row (foundX m c) (foundHp m c) (foundHs m c) (blockAt m c 0 t) (blockAt m c 1 t) (blockAt m c 2 t)
    (foundWx m c) (foundUh m c) (foundWht m c) (foundUsh m c) (foundBi m c) (foundBh m c) (rowAt t p) p
    (rows0 m c t p) (rows1 m c t p) (rows2 m c t p) q

/-! ## The whole array -/

/-- After the run the output array is the fused cell of the arrays the launch found. -/
theorem result_fused (c : Dev nD) : (dats m 0 c).arrAt 9 cfg0.N = foundCell m c :=
  (dats m 0 c).arrAt_eq_of_cover 9 (foundCell m c) (fun t _ => flushed_cell m c t) out_covered

/-- The fused cell of what the launch found is the cell of the arguments as @main received them. -/
theorem found_is_cell (c : Dev nD) :
    foundCell m c = cellM (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) := by
  have e0 : foundX m c = m ((c : Thread nD τ).loc main_arg0) := entry_kept m c main_arg0 (by decide)
  have e1 : foundHp m c = m ((c : Thread nD τ).loc main_arg1) := entry_kept m c main_arg1 (by decide)
  have e2 : foundHs m c = m ((c : Thread nD τ).loc main_arg2) := entry_kept m c main_arg2 (by decide)
  funext i
  show fused (foundX m c) (foundHp m c) (foundHs m c) (foundWx m c) (foundUh m c) (foundWht m c) (foundUsh m c) (foundBi m c) (foundBh m c) (i 0) (i 1)
    = cell _ _ _ _ _ _ _ _ _ _ _ _ _ _ _ _ (i 0) (i 1)
  rw [e0, e1, e2]
  exact Cert.Gru.fused_eq_cell _ _ _ _ _ _ _ _ _ _ _ _ _ _ _ _ _ _ _ _ _ _
    (Cert.KernelIdeal.Host.Wx_i m c) (Cert.KernelIdeal.Host.Wx_z m c) (Cert.KernelIdeal.Host.Wx_r m c) (Cert.KernelIdeal.Host.Wx_hn m c)
    (Cert.KernelIdeal.Host.Uh_z m c) (Cert.KernelIdeal.Host.Uh_r m c) (Cert.KernelIdeal.Host.Uh_hn m c) (Cert.KernelIdeal.Host.Wh_t m c)
    (Cert.KernelIdeal.Host.Ush_z m c) (Cert.KernelIdeal.Host.Ush_r m c) (Cert.KernelIdeal.Host.Ush_hn m c)
    (Cert.KernelIdeal.Host.bi_row m c) (Cert.KernelIdeal.Host.bh_row m c) (i 0) (i 1)

/-- After the run the output array is the cell of the sixteen arguments. -/
theorem result_cell (c : Dev nD) :
    (dats m 0 c).arrAt 9 cfg0.N = cellM (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) :=
  (result_fused m c).trans (found_is_cell m c)

/-! ## The run, read -/

/-- Every weakly fair execution of @main terminates with the result array at the cell of the arguments and the
    arguments unchanged. -/
theorem run_cell : θ_run defs (onTc (τ := τ) (main (F := Ideal))) ⟨m, fun _ => 0, ρ⟩ fun r => ∀ c : Dev nD,
      r.2.mem ((c.tc : Thread nD τ).loc main_v13) = cellM (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨((h c).1 9).trans (result_cell m c), kept_post m (dats m) (A_eq m) r h c⟩)
    (run_main m ρ)

end Cert.KernelIdeal.Result

end
-- ==== Proof.RefCell.lean ====
/-
  The reference computes the cell.

  The reference program is a chain of elementwise operations, transposes, column slices, broadcasts and plain matrix
  products. Read at entry `(p, j)`, each of its named intermediate arrays is the quantity of the same name in the
  specification of the cell:

    the input-side pre-activations   x · Wiᵀ + bi    at `(p, c)`  are `gi p c`,   the hidden-side ones `gh p c`;
    the renewed shared state at `(p, j)` is `shared p j`;
    the update gate is `upd p j`, the reset gate `rst p j`, the candidate state `cand p j`;
    the result is `cell p j`.

  Why: an elementwise operation at an index is the scalar operation on its operands at that index; a transposed
  matrix at `(k, c)` is the matrix at `(c, k)`, so a product against a transposed matrix at `(p, c)` is
  `∑ k, a (p, k) · w (c, k)`, row against row; the slice of columns `o … o + 99` at `(p, j)` is the array at
  `(p, o + j)`; a bias broadcast along the rows at `(p, c)` is the bias at `c`; a broadcast scalar is that scalar at
  every index. The logistic function is spelled out in the program as `1 / (1 + exp (-t))`, which over the extended
  reals is its definition. No sum is reordered and no arithmetic law is used: after the reads are carried out the two
  sides are the same expression.
-/
import proofs.«175190_j76991583748616_1_alg».proof.Proof.Gen.ReferenceIdeal.Read
import proofs.«175190_j76991583748616_1_alg».proof.Proof.Spec

noncomputable section

namespace Cert.ReferenceIdeal.Cell

open Cert.ReferenceIdeal Cert.ReferenceIdeal.Gen Cert.ReferenceIdeal.Read Idealize.ShloMosaic Idealize.ShloMosaic.ValueIdx Idealize.ShloMosaic.StableHlo
open Cert.Gru (gi gh shared upd rst cand cell cellM rowDot col one)

/-! ## Where the layout operations read

A transposed matrix is read with its coordinates exchanged, a slice of columns `o … o + 99` at column `o + j`, a
product's left operand along its row and its right operand along its column. -/

theorem lidx_v1 (p : Fin 262144) (c : Fin 300) (k : Fin 250) : lidx_main_v1 (ix2 p c) k = ix2 p k :=
  funext fun a => Fin.ext (by match a with | ⟨0, _⟩ => rfl | ⟨1, _⟩ => rfl)
theorem ridx_v1 (p : Fin 262144) (c : Fin 300) (k : Fin 250) : idx_main_v0 (ridx_main_v1 (ix2 p c) k) = ix2 c k :=
  funext fun a => Fin.ext (by match a with | ⟨0, _⟩ => rfl | ⟨1, _⟩ => rfl)
theorem bidx_v3 (p : Fin 262144) (c : Fin 300) : idx_main_v2 (idx_main_v3 (ix2 p c)) = ix1 c :=
  funext fun a => Fin.ext (by match a with | ⟨0, _⟩ => rfl)

theorem v4_eq (x0 : (⟨S262144x250, .f32⟩ : BufTy).Contents (Elt Ideal)) (x3 : (⟨S300x250, .f32⟩ : BufTy).Contents (Elt Ideal))
    (x5 : (⟨S300, .f32⟩ : BufTy).Contents (Elt Ideal)) (p : Fin 262144) (c : Fin 300) :
    val_main_v4 (F := Ideal) x0 x3 x5 (ix2 p c) = gi x0 x3 x5 p c := by
  rw [val_main_v4_apply, val_main_v1_apply, val_main_v3_apply, val_main_v2_apply]
  simp only [val_main_v0_apply, lidx_v1, ridx_v1, bidx_v3, Ideal.addf_def]
  rfl

theorem lidx_v6 (p : Fin 262144) (c : Fin 300) (k : Fin 100) : lidx_main_v6 (ix2 p c) k = ix2 p k :=
  funext fun a => Fin.ext (by match a with | ⟨0, _⟩ => rfl | ⟨1, _⟩ => rfl)
theorem ridx_v6 (p : Fin 262144) (c : Fin 300) (k : Fin 100) : idx_main_v5 (ridx_main_v6 (ix2 p c) k) = ix2 c k :=
  funext fun a => Fin.ext (by match a with | ⟨0, _⟩ => rfl | ⟨1, _⟩ => rfl)
theorem bidx_v8 (p : Fin 262144) (c : Fin 300) : idx_main_v7 (idx_main_v8 (ix2 p c)) = ix1 c :=
  funext fun a => Fin.ext (by match a with | ⟨0, _⟩ => rfl)

theorem v9_eq (x2 : (⟨S262144x100, .f32⟩ : BufTy).Contents (Elt Ideal)) (x4 : (⟨S300x100, .f32⟩ : BufTy).Contents (Elt Ideal))
    (x6 : (⟨S300, .f32⟩ : BufTy).Contents (Elt Ideal)) (p : Fin 262144) (c : Fin 300) :
    val_main_v9 (F := Ideal) x2 x4 x6 (ix2 p c) = gh x2 x4 x6 p c := by
  rw [val_main_v9_apply, val_main_v6_apply, val_main_v8_apply, val_main_v7_apply]
  simp only [val_main_v5_apply, lidx_v6, ridx_v6, bidx_v8, Ideal.addf_def]
  rfl

/-! ## The shared state -/

theorem sidx_v10 (p : Fin 262144) (j : Fin 100) : idx_main_v10 (ix2 p j) = ix2 p (col 300 0 (by decide) j) :=
  funext fun a => Fin.ext (by match a with | ⟨0, _⟩ => rfl | ⟨1, _⟩ => exact (Nat.zero_add _).symm)
theorem sidx_v11 (p : Fin 262144) (j : Fin 100) : idx_main_v11 (ix2 p j) = ix2 p (col 300 100 (by decide) j) :=
  funext fun a => Fin.ext (by match a with | ⟨0, _⟩ => rfl | ⟨1, _⟩ => rfl)
theorem sidx_v12 (p : Fin 262144) (j : Fin 100) : idx_main_v12 (ix2 p j) = ix2 p (col 300 200 (by decide) j) :=
  funext fun a => Fin.ext (by match a with | ⟨0, _⟩ => rfl | ⟨1, _⟩ => rfl)
theorem sidx_v13 (p : Fin 262144) (j : Fin 100) : idx_main_v13 (ix2 p j) = ix2 p (col 300 0 (by decide) j) :=
  funext fun a => Fin.ext (by match a with | ⟨0, _⟩ => rfl | ⟨1, _⟩ => exact (Nat.zero_add _).symm)
theorem sidx_v14 (p : Fin 262144) (j : Fin 100) : idx_main_v14 (ix2 p j) = ix2 p (col 300 100 (by decide) j) :=
  funext fun a => Fin.ext (by match a with | ⟨0, _⟩ => rfl | ⟨1, _⟩ => rfl)
theorem sidx_v15 (p : Fin 262144) (j : Fin 100) : idx_main_v15 (ix2 p j) = ix2 p (col 300 200 (by decide) j) :=
  funext fun a => Fin.ext (by match a with | ⟨0, _⟩ => rfl | ⟨1, _⟩ => rfl)

theorem v37_eq (x0 : (⟨S262144x250, .f32⟩ : BufTy).Contents (Elt Ideal)) (x2 : (⟨S262144x100, .f32⟩ : BufTy).Contents (Elt Ideal)) (x3 : (⟨S300x250, .f32⟩ : BufTy).Contents (Elt Ideal)) (x4 : (⟨S300x100, .f32⟩ : BufTy).Contents (Elt Ideal))
    (x5 x6 : (⟨S300, .f32⟩ : BufTy).Contents (Elt Ideal)) (p : Fin 262144) (j : Fin 100) :
    val_main_v37 (F := Ideal) x0 x2 x3 x4 x5 x6 (ix2 p j) = shared x0 x2 x3 x4 x5 x6 p j := by
  simp only [val_main_v37_apply, val_main_v36_apply, val_main_v35_apply, val_main_v34_apply, val_main_v33_apply,
    val_main_cst_3_apply, val_main_v32_apply, val_main_v31_apply, val_main_v30_apply, val_main_v29_apply,
    val_main_v28_apply, val_main_cst_2_apply, val_main_v27_apply, val_main_v26_apply, val_main_cst_1_apply,
    val_main_v25_apply, val_main_v24_apply, val_main_v23_apply, val_main_v22_apply, val_main_v21_apply,
    val_main_cst_0_apply, val_main_v20_apply, val_main_v19_apply, val_main_cst_apply, val_main_v18_apply,
    val_main_v17_apply, val_main_v16_apply, val_main_v15_apply, val_main_v14_apply, val_main_v13_apply,
    val_main_v12_apply, val_main_v11_apply, val_main_v10_apply,
    sidx_v10, sidx_v11, sidx_v12, sidx_v13, sidx_v14, sidx_v15, v4_eq, v9_eq,
    Ideal.ofBits_def, Ideal.addf_def, Ideal.subf_def, Ideal.mulf_def, Ideal.hostDivf_def, Ideal.hostNegf_def,
    Ideal.negf_def, Ideal.hostUnary_exp_def, Ideal.hostUnary_tanh_def, Cert.Gru.logistic_spelled]
  rfl

/-! ## The three gates -/

theorem lidx_v39 (p : Fin 262144) (j : Fin 100) (k : Fin 250) : lidx_main_v39 (ix2 p j) k = ix2 p k :=
  funext fun a => Fin.ext (by match a with | ⟨0, _⟩ => rfl | ⟨1, _⟩ => rfl)
theorem ridx_v39 (p : Fin 262144) (j : Fin 100) (k : Fin 250) : idx_main_v38 (ridx_main_v39 (ix2 p j) k) = ix2 j k :=
  funext fun a => Fin.ext (by match a with | ⟨0, _⟩ => rfl | ⟨1, _⟩ => rfl)
theorem lidx_v41 (p : Fin 262144) (j : Fin 100) (k : Fin 100) : lidx_main_v41 (ix2 p j) k = ix2 p k :=
  funext fun a => Fin.ext (by match a with | ⟨0, _⟩ => rfl | ⟨1, _⟩ => rfl)
theorem ridx_v41 (p : Fin 262144) (j : Fin 100) (k : Fin 100) : idx_main_v40 (ridx_main_v41 (ix2 p j) k) = ix2 j k :=
  funext fun a => Fin.ext (by match a with | ⟨0, _⟩ => rfl | ⟨1, _⟩ => rfl)
theorem lidx_v44 (p : Fin 262144) (j : Fin 100) (k : Fin 100) : lidx_main_v44 (ix2 p j) k = ix2 p k :=
  funext fun a => Fin.ext (by match a with | ⟨0, _⟩ => rfl | ⟨1, _⟩ => rfl)
theorem ridx_v44 (p : Fin 262144) (j : Fin 100) (k : Fin 100) : idx_main_v43 (ridx_main_v44 (ix2 p j) k) = ix2 j k :=
  funext fun a => Fin.ext (by match a with | ⟨0, _⟩ => rfl | ⟨1, _⟩ => rfl)

theorem v51_eq (x0 : (⟨S262144x250, .f32⟩ : BufTy).Contents (Elt Ideal)) (x1 x2 : (⟨S262144x100, .f32⟩ : BufTy).Contents (Elt Ideal)) (x3 : (⟨S300x250, .f32⟩ : BufTy).Contents (Elt Ideal)) (x4 : (⟨S300x100, .f32⟩ : BufTy).Contents (Elt Ideal))
    (x5 x6 : (⟨S300, .f32⟩ : BufTy).Contents (Elt Ideal)) (x7 : (⟨S100x250, .f32⟩ : BufTy).Contents (Elt Ideal)) (x8 x9 : (⟨S100x100, .f32⟩ : BufTy).Contents (Elt Ideal)) (p : Fin 262144) (j : Fin 100) :
    val_main_v51 (F := Ideal) x0 x1 x2 x3 x4 x5 x6 x7 x8 x9 (ix2 p j) = upd x0 x1 x2 x3 x4 x5 x6 x7 x8 x9 p j := by
  simp only [val_main_v51_apply, val_main_v50_apply, val_main_cst_5_apply, val_main_v49_apply, val_main_v48_apply,
    val_main_cst_4_apply, val_main_v47_apply, val_main_v46_apply, val_main_v45_apply, val_main_v44_apply,
    val_main_v43_apply, val_main_v42_apply, val_main_v41_apply, val_main_v40_apply, val_main_v39_apply,
    val_main_v38_apply, lidx_v39, ridx_v39, lidx_v41, ridx_v41, lidx_v44, ridx_v44, v37_eq,
    Ideal.ofBits_def, Ideal.addf_def, Ideal.hostDivf_def, Ideal.hostNegf_def, Ideal.negf_def, Ideal.hostUnary_exp_def,
    Cert.Gru.logistic_spelled]
  rfl

theorem lidx_v53 (p : Fin 262144) (j : Fin 100) (k : Fin 250) : lidx_main_v53 (ix2 p j) k = ix2 p k :=
  funext fun a => Fin.ext (by match a with | ⟨0, _⟩ => rfl | ⟨1, _⟩ => rfl)
theorem ridx_v53 (p : Fin 262144) (j : Fin 100) (k : Fin 250) : idx_main_v52 (ridx_main_v53 (ix2 p j) k) = ix2 j k :=
  funext fun a => Fin.ext (by match a with | ⟨0, _⟩ => rfl | ⟨1, _⟩ => rfl)
theorem lidx_v55 (p : Fin 262144) (j : Fin 100) (k : Fin 100) : lidx_main_v55 (ix2 p j) k = ix2 p k :=
  funext fun a => Fin.ext (by match a with | ⟨0, _⟩ => rfl | ⟨1, _⟩ => rfl)
theorem ridx_v55 (p : Fin 262144) (j : Fin 100) (k : Fin 100) : idx_main_v54 (ridx_main_v55 (ix2 p j) k) = ix2 j k :=
  funext fun a => Fin.ext (by match a with | ⟨0, _⟩ => rfl | ⟨1, _⟩ => rfl)
theorem lidx_v58 (p : Fin 262144) (j : Fin 100) (k : Fin 100) : lidx_main_v58 (ix2 p j) k = ix2 p k :=
  funext fun a => Fin.ext (by match a with | ⟨0, _⟩ => rfl | ⟨1, _⟩ => rfl)
theorem ridx_v58 (p : Fin 262144) (j : Fin 100) (k : Fin 100) : idx_main_v57 (ridx_main_v58 (ix2 p j) k) = ix2 j k :=
  funext fun a => Fin.ext (by match a with | ⟨0, _⟩ => rfl | ⟨1, _⟩ => rfl)

theorem v65_eq (x0 : (⟨S262144x250, .f32⟩ : BufTy).Contents (Elt Ideal)) (x1 x2 : (⟨S262144x100, .f32⟩ : BufTy).Contents (Elt Ideal)) (x3 : (⟨S300x250, .f32⟩ : BufTy).Contents (Elt Ideal)) (x4 : (⟨S300x100, .f32⟩ : BufTy).Contents (Elt Ideal))
    (x5 x6 : (⟨S300, .f32⟩ : BufTy).Contents (Elt Ideal)) (x10 : (⟨S100x250, .f32⟩ : BufTy).Contents (Elt Ideal)) (x11 x12 : (⟨S100x100, .f32⟩ : BufTy).Contents (Elt Ideal)) (p : Fin 262144) (j : Fin 100) :
    val_main_v65 (F := Ideal) x0 x1 x2 x3 x4 x5 x6 x10 x11 x12 (ix2 p j) = rst x0 x1 x2 x3 x4 x5 x6 x10 x11 x12 p j := by
  simp only [val_main_v65_apply, val_main_v64_apply, val_main_cst_7_apply, val_main_v63_apply, val_main_v62_apply,
    val_main_cst_6_apply, val_main_v61_apply, val_main_v60_apply, val_main_v59_apply, val_main_v58_apply,
    val_main_v57_apply, val_main_v56_apply, val_main_v55_apply, val_main_v54_apply, val_main_v53_apply,
    val_main_v52_apply, lidx_v53, ridx_v53, lidx_v55, ridx_v55, lidx_v58, ridx_v58, v37_eq,
    Ideal.ofBits_def, Ideal.addf_def, Ideal.hostDivf_def, Ideal.hostNegf_def, Ideal.negf_def, Ideal.hostUnary_exp_def,
    Cert.Gru.logistic_spelled]
  rfl

theorem lidx_v67 (p : Fin 262144) (j : Fin 100) (k : Fin 250) : lidx_main_v67 (ix2 p j) k = ix2 p k :=
  funext fun a => Fin.ext (by match a with | ⟨0, _⟩ => rfl | ⟨1, _⟩ => rfl)
theorem ridx_v67 (p : Fin 262144) (j : Fin 100) (k : Fin 250) : idx_main_v66 (ridx_main_v67 (ix2 p j) k) = ix2 j k :=
  funext fun a => Fin.ext (by match a with | ⟨0, _⟩ => rfl | ⟨1, _⟩ => rfl)
theorem lidx_v69 (p : Fin 262144) (j : Fin 100) (k : Fin 100) : lidx_main_v69 (ix2 p j) k = ix2 p k :=
  funext fun a => Fin.ext (by match a with | ⟨0, _⟩ => rfl | ⟨1, _⟩ => rfl)
theorem ridx_v69 (p : Fin 262144) (j : Fin 100) (k : Fin 100) : idx_main_v68 (ridx_main_v69 (ix2 p j) k) = ix2 j k :=
  funext fun a => Fin.ext (by match a with | ⟨0, _⟩ => rfl | ⟨1, _⟩ => rfl)
theorem lidx_v73 (p : Fin 262144) (j : Fin 100) (k : Fin 100) : lidx_main_v73 (ix2 p j) k = ix2 p k :=
  funext fun a => Fin.ext (by match a with | ⟨0, _⟩ => rfl | ⟨1, _⟩ => rfl)
theorem ridx_v73 (p : Fin 262144) (j : Fin 100) (k : Fin 100) : idx_main_v72 (ridx_main_v73 (ix2 p j) k) = ix2 j k :=
  funext fun a => Fin.ext (by match a with | ⟨0, _⟩ => rfl | ⟨1, _⟩ => rfl)

theorem v75_eq (x0 : (⟨S262144x250, .f32⟩ : BufTy).Contents (Elt Ideal)) (x1 x2 : (⟨S262144x100, .f32⟩ : BufTy).Contents (Elt Ideal)) (x3 : (⟨S300x250, .f32⟩ : BufTy).Contents (Elt Ideal)) (x4 : (⟨S300x100, .f32⟩ : BufTy).Contents (Elt Ideal))
    (x5 x6 : (⟨S300, .f32⟩ : BufTy).Contents (Elt Ideal)) (x10 : (⟨S100x250, .f32⟩ : BufTy).Contents (Elt Ideal)) (x11 x12 : (⟨S100x100, .f32⟩ : BufTy).Contents (Elt Ideal)) (x13 : (⟨S100x250, .f32⟩ : BufTy).Contents (Elt Ideal))
    (x14 x15 : (⟨S100x100, .f32⟩ : BufTy).Contents (Elt Ideal)) (p : Fin 262144) (j : Fin 100) :
    val_main_v75 (F := Ideal) x0 x1 x2 x3 x4 x5 x6 x10 x11 x12 x13 x14 x15 (ix2 p j)
      = cand x0 x1 x2 x3 x4 x5 x6 x10 x11 x12 x13 x14 x15 p j := by
  simp only [val_main_v75_apply, val_main_v74_apply, val_main_v73_apply, val_main_v72_apply, val_main_v71_apply,
    val_main_v70_apply, val_main_v69_apply, val_main_v68_apply, val_main_v67_apply, val_main_v66_apply,
    lidx_v67, ridx_v67, lidx_v69, ridx_v69, lidx_v73, ridx_v73, v37_eq, v65_eq,
    Ideal.addf_def, Ideal.mulf_def, Ideal.hostUnary_tanh_def]
  rfl

/-! ## The new hidden state -/

theorem v80_eq (x0 : (⟨S262144x250, .f32⟩ : BufTy).Contents (Elt Ideal)) (x1 x2 : (⟨S262144x100, .f32⟩ : BufTy).Contents (Elt Ideal)) (x3 : (⟨S300x250, .f32⟩ : BufTy).Contents (Elt Ideal)) (x4 : (⟨S300x100, .f32⟩ : BufTy).Contents (Elt Ideal))
    (x5 x6 : (⟨S300, .f32⟩ : BufTy).Contents (Elt Ideal)) (x7 : (⟨S100x250, .f32⟩ : BufTy).Contents (Elt Ideal)) (x8 x9 : (⟨S100x100, .f32⟩ : BufTy).Contents (Elt Ideal)) (x10 : (⟨S100x250, .f32⟩ : BufTy).Contents (Elt Ideal))
    (x11 x12 : (⟨S100x100, .f32⟩ : BufTy).Contents (Elt Ideal)) (x13 : (⟨S100x250, .f32⟩ : BufTy).Contents (Elt Ideal)) (x14 x15 : (⟨S100x100, .f32⟩ : BufTy).Contents (Elt Ideal)) (p : Fin 262144) (j : Fin 100) :
    val_main_v80 (F := Ideal) x0 x1 x2 x3 x4 x5 x6 x7 x8 x9 x10 x11 x12 x13 x14 x15 (ix2 p j)
      = cell x0 x1 x2 x3 x4 x5 x6 x7 x8 x9 x10 x11 x12 x13 x14 x15 p j := by
  simp only [val_main_v80_apply, val_main_v79_apply, val_main_v78_apply, val_main_v77_apply, val_main_v76_apply,
    val_main_cst_8_apply, v51_eq, v75_eq, Ideal.ofBits_def, Ideal.addf_def, Ideal.subf_def, Ideal.mulf_def]
  rfl

theorem ref_is_cell (x0 : (⟨S262144x250, .f32⟩ : BufTy).Contents (Elt Ideal)) (x1 x2 : (⟨S262144x100, .f32⟩ : BufTy).Contents (Elt Ideal)) (x3 : (⟨S300x250, .f32⟩ : BufTy).Contents (Elt Ideal)) (x4 : (⟨S300x100, .f32⟩ : BufTy).Contents (Elt Ideal)) (x5 x6 : (⟨S300, .f32⟩ : BufTy).Contents (Elt Ideal)) (x7 : (⟨S100x250, .f32⟩ : BufTy).Contents (Elt Ideal)) (x8 x9 : (⟨S100x100, .f32⟩ : BufTy).Contents (Elt Ideal)) (x10 : (⟨S100x250, .f32⟩ : BufTy).Contents (Elt Ideal)) (x11 x12 : (⟨S100x100, .f32⟩ : BufTy).Contents (Elt Ideal)) (x13 : (⟨S100x250, .f32⟩ : BufTy).Contents (Elt Ideal)) (x14 x15 : (⟨S100x100, .f32⟩ : BufTy).Contents (Elt Ideal)) :
    Cert.ReferenceIdeal.Read.val_main_v80 (F := Ideal) x0 x1 x2 x3 x4 x5 x6 x7 x8 x9 x10 x11 x12 x13 x14 x15
      = Cert.Gru.cellM x0 x1 x2 x3 x4 x5 x6 x7 x8 x9 x10 x11 x12 x13 x14 x15 := by
  funext i
  obtain ⟨p, j, rfl⟩ : ∃ (p : Fin 262144) (j : Fin 100), i = ix2 p j := ⟨i 0, i 1, eq_ix2 i⟩
  exact v80_eq x0 x1 x2 x3 x4 x5 x6 x7 x8 x9 x10 x11 x12 x13 x14 x15 p j

end Cert.ReferenceIdeal.Cell

end
-- ==== Proof.lean ====
/-
  A fused GRU cell with a task-specific head, as one Pallas launch, against its jnp reference: equal over the extended reals.

  Both programs take the input rows `x`, the previous hidden rows `hp`, the previous shared rows `hs` and thirteen
  parameter arrays, and return the new hidden rows. The reference renews the shared state by a standard GRU cell and then
  forms the task's update gate, reset gate and candidate from three linear maps each (of `x`, of `hp`, of the renewed shared
  state). The kernel computes the same thing 2048 rows at a time; it stacks the four input-side matrices into one product,
  each triple of hidden-side matrices into one product, narrows its operands to bf16 before each product and asks for the
  logistic function as one operation where the reference spells it out. Over the extended reals narrowing is the identity,
  a product into a zero accumulator is a plain sum, the logistic operation is `1 / (1 + exp (-t))` by definition, and a
  stacked matrix read block of columns by block of columns gives back the layers' matrices: both programs end with the
  result array at `Cert.Gru.cellM` of the arguments (Spec), entry by entry the same expression. No sum is reordered and no
  arithmetic law is used, so the precondition (all inputs finite) is never opened.

  The frames: the kernel program is thirteen host operations and one launch over 128 grid points; its body reads nine
  staging buffers and overwrites a tenth, so the launch's frame run applies at both readings of the floats (KEntry, KBody,
  KFrame; BEntry, BBody, BFrame for the word-level reading). The reference is host operations only; its frame is its run
  with the result forgotten. The idealization rewrote nothing, so `preserves` asks nothing.
-/
import proofs.«175190_j76991583748616_1_alg».proof.Defs
import proofs.«175190_j76991583748616_1_alg».proof.Proof.Gen.Kernel
import proofs.«175190_j76991583748616_1_alg».proof.Proof.Gen.Kernel.Skeleton
import proofs.«175190_j76991583748616_1_alg».proof.Proof.Gen.Kernel.Launch
import proofs.«175190_j76991583748616_1_alg».proof.Proof.Gen.Kernel.Points
import proofs.«175190_j76991583748616_1_alg».proof.Proof.Gen.KernelIdeal
import proofs.«175190_j76991583748616_1_alg».proof.Proof.Gen.KernelIdeal.Skeleton
import proofs.«175190_j76991583748616_1_alg».proof.Proof.Gen.KernelIdeal.Launch
import proofs.«175190_j76991583748616_1_alg».proof.Proof.Gen.KernelIdeal.Points
import proofs.«175190_j76991583748616_1_alg».proof.Proof.Gen.ReferenceIdeal
import proofs.«175190_j76991583748616_1_alg».proof.Proof.Gen.Pre_finite_inputs
import proofs.«175190_j76991583748616_1_alg».proof.Proof.Gen.ReferenceIdeal.Run
import proofs.«175190_j76991583748616_1_alg».proof.Proof.Gen.ReferenceIdeal.Read
import proofs.«175190_j76991583748616_1_alg».proof.Proof.BFrame
import proofs.«175190_j76991583748616_1_alg».proof.Proof.KFrame
import proofs.«175190_j76991583748616_1_alg».proof.Proof.KResult
import proofs.«175190_j76991583748616_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_kernel : Cert.frame_Kernel := fun m ρ _ => Cert.Kernel.Frame.frame m ρ

/-- So does the kernel program read over the extended reals. -/
theorem frame_kernelIdeal : Cert.frame_KernelIdeal := fun m ρ _ => Cert.KernelIdeal.Frame.frame m ρ

/-- The reference is host operations only: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the sixteen arguments both programs end with the result array at the cell of the
    arguments: the kernel by its blocks (KResult), the reference by its run read stage by stage (RefCell). -/
theorem algebraic : Cert.algebraic_KernelIdeal_ReferenceIdeal := by
  intro m ρ m' ρ' _ hagree
  refine ⟨_, Cert.KernelIdeal.Result.run_cell m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v80_eq, Cert.ReferenceIdeal.Cell.ref_is_cell, a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
